-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000x128 : Shape := ⟨2, ![320000, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S640x1024 : Shape := ⟨2, ![640, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S1x320000 : Shape := ⟨2, ![1, 320000]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part4 {F : FTy → Type} [FloatOps F] (main_arg1 : IVec S2x320000 32) (main_arg14 : FVec F S128 .f32) (main_v63 : IVec S_ 1) (main_v67 : IVec S_ 1) : IVec S_ 1 :=
  let main_v68 : IVec S_ 1 := andi main_v63 main_v67
  let main_v69 : IVec S1x320000 32 := (extractStridedSlice S1x320000 ![0, 0] · slices_S2x320000_S1x320000_0_0) main_arg1
  let main_v70 : IVec S320000 32 := shapeCast S320000 main_v69 shapeCasts_S1x320000_S320000
  let main_c_26 : IVec S_ 32 := constantI S_ 32 0#32
  let main_v71 : IVec S320000 32 := broadcastInDim S320000 ![] bcast_S_S320000 main_c_26
  let main_v72 : IVec S320000 1 := cmpi .sge main_v70 main_v71
  let main_c_27 : IVec S_ 1 := constantI S_ 1 1#1
  let main_v73 : IVec S_ 1 := (fun x v => Host.reduce IntOp.andi x v reducesTo_S320000_S_d0 h_S_) main_v72 main_c_27
  let main_v74 : IVec S_ 1 := andi main_v68 main_v73
  let main_v75 : IVec S1x320000 32 := (extractStridedSlice S1x320000 ![0, 0] · slices_S2x320000_S1x320000_0_0) main_arg1
  let main_v76 : IVec S320000 32 := shapeCast S320000 main_v75 shapeCasts_S1x320000_S320000
  let main_c_28 : IVec S_ 32 := constantI S_ 32 20000#32
  let main_v77 : IVec S320000 32 := broadcastInDim S320000 ![] bcast_S_S320000 main_c_28
  let main_v78 : IVec S320000 1 := cmpi .slt main_v76 main_v77
  let main_c_29 : IVec S_ 1 := constantI S_ 1 1#1
  let main_v79 : IVec S_ 1 := (fun x v => Host.reduce IntOp.andi x v reducesTo_S320000_S_d0 h_S_) main_v78 main_c_29
  let main_v80 : IVec S_ 1 := andi main_v74 main_v79
  let main_cst_30 : FVec F S_ .f32 := constant S_ .f32 0x00000000#32
  let main_v81 : FVec F S128 .f32 := broadcastInDim S128 ![] bcast_S_S128 main_cst_30
  let main_v82 : IVec S128 1 := cmpf .oge main_arg14 main_v81
  let main_c_31 : IVec S_ 1 := constantI S_ 1 1#1
  let main_v83 : IVec S_ 1 := (fun x v => Host.reduce IntOp.andi x v reducesTo_S128_S_d0 h_S_) main_v82 main_c_31
  let main_v84 : IVec S_ 1 := andi main_v80 main_v83
  main_v84

def fn_part3 {F : FTy → Type} [FloatOps F] (main_arg1 : IVec S2x320000 32) (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg14 main_v63 main_v67

def fn_part2 {F : FTy → Type} [FloatOps F] (main_arg1 : IVec S2x320000 32) (main_arg8 : FVec F S1024 .f32) (main_arg9 : FVec F S1024x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x128 .f32 := Host.absf main_arg9
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_v48 main_v49 main_v50

def fn_part1 {F : FTy → Type} [FloatOps F] (main_arg1 : IVec S2x320000 32) (main_arg5 : FVec F S256x512 .f32) (main_arg6 : FVec F S512 .f32) (main_arg7 : FVec F S640x1024 .f32) (main_arg8 : FVec F S1024 .f32) (main_arg9 : FVec F S1024x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S640x1024 .f32 := Host.absf main_arg7
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S20000x128 .f32) (main_arg1 : IVec S2x320000 32) (main_arg2 : FVec F S320000x128 .f32) (main_arg3 : FVec F S128x256 .f32) (main_arg4 : FVec F S256 .f32) (main_arg5 : FVec F S256x512 .f32) (main_arg6 : FVec F S512 .f32) (main_arg7 : FVec F S640x1024 .f32) (main_arg8 : FVec F S1024 .f32) (main_arg9 : FVec F S1024x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg2
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S20000x128 : Shape := ⟨2, ![20000, 128]⟩
abbrev S2x320000 : Shape := ⟨2, ![2, 320000]⟩
abbrev S320000x128 : Shape := ⟨2, ![320000, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S640x1024 : Shape := ⟨2, ![640, 1024]⟩
abbrev S1024 : Shape := ⟨1, ![1024]⟩
abbrev S1024x128 : Shape := ⟨2, ![1024, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x512 : Shape := ⟨2, ![320000, 512]⟩
abbrev S4000x128 : Shape := ⟨2, ![4000, 128]⟩
abbrev S4000x512 : Shape := ⟨2, ![4000, 512]⟩
abbrev S4000x256 : Shape := ⟨2, ![4000, 256]⟩
abbrev S1x256 : Shape := ⟨2, ![1, 256]⟩
abbrev S1x512 : Shape := ⟨2, ![1, 512]⟩
abbrev S20000x512 : Shape := ⟨2, ![20000, 512]⟩
abbrev S128x1024 : Shape := ⟨2, ![128, 1024]⟩
abbrev S512x1024 : Shape := ⟨2, ![512, 1024]⟩
abbrev S1x128 : Shape := ⟨2, ![1, 128]⟩
abbrev S2000x128 : Shape := ⟨2, ![2000, 128]⟩
abbrev S2000x512 : Shape := ⟨2, ![2000, 512]⟩
abbrev S2000x1024 : Shape := ⟨2, ![2000, 1024]⟩
abbrev S1x1024 : Shape := ⟨2, ![1, 1024]⟩

abbrev nBuf : Space → Nat
  | .hbm => 67
  | .vmem => 21
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S320000x128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S640x1024, .f32⟩
  | .hbm, ⟨8, _⟩ => ⟨S1024, .f32⟩
  | .hbm, ⟨9, _⟩ => ⟨S1024x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S1, .i32⟩
  | .hbm, ⟨28, _⟩ => ⟨S_, .i32⟩
  | .hbm, ⟨29, _⟩ => ⟨S320000x1, .i32⟩
  | .hbm, ⟨30, _⟩ => ⟨S320000x1, .i1⟩
  | .hbm, ⟨31, _⟩ => ⟨S1x1, .i32⟩
  | .hbm, ⟨32, _⟩ => ⟨S320000x1, .i32⟩
  | .hbm, ⟨33, _⟩ => ⟨S320000x1, .i1⟩
  | .hbm, ⟨34, _⟩ => ⟨S320000x1, .i1⟩
  | .hbm, ⟨35, _⟩ => ⟨S_, .i1⟩
  | .hbm, ⟨36, _⟩ => ⟨S320000, .i1⟩
  | .hbm, ⟨37, _⟩ => ⟨S320000x128, .f32⟩
  | .hbm, ⟨38, _⟩ => ⟨S320000x128, .i1⟩
  | .hbm, ⟨39, _⟩ => ⟨S_, .f32⟩
  | .hbm, ⟨40, _⟩ => ⟨S320000x128, .f32⟩
  | .hbm, ⟨41, _⟩ => ⟨S320000x128, .f32⟩
  | .hbm, ⟨42, _⟩ => ⟨S128x256, .bf16⟩
  | .hbm, ⟨43, _⟩ => ⟨S256x512, .bf16⟩
  | .hbm, ⟨44, _⟩ => ⟨S320000x512, .bf16⟩
  | .hbm, ⟨45, _⟩ => ⟨S320000x512, .f32⟩
  | .hbm, ⟨46, _⟩ => ⟨S_, .f32⟩
  | .hbm, ⟨47, _⟩ => ⟨S20000x512, .f32⟩
  | .hbm, ⟨48, _⟩ => ⟨S320000x1, .i32⟩
  | .hbm, ⟨49, _⟩ => ⟨S20000x512, .f32⟩
  | .hbm, ⟨50, _⟩ => ⟨S128x1024, .f32⟩
  | .hbm, ⟨51, _⟩ => ⟨S128x1024, .bf16⟩
  | .hbm, ⟨52, _⟩ => ⟨S512x1024, .f32⟩
  | .hbm, ⟨53, _⟩ => ⟨S512x1024, .bf16⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1024x128, .f32⟩
  | .hbm, ⟨61, _⟩ => ⟨S1024x128, .f32⟩
  | .hbm, ⟨62, _⟩ => ⟨S1024x128, .bf16⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .bf16⟩
  | .local _ .vmem, ⟨5, _⟩ => ⟨S256, .f32⟩
  | .local _ .vmem, ⟨6, _⟩ => ⟨S256x512, .bf16⟩
  | .local _ .vmem, ⟨7, _⟩ => ⟨S512, .f32⟩
  | .local _ .vmem, ⟨8, _⟩ => ⟨S4000x512, .bf16⟩
  | .local _ .vmem, ⟨9, _⟩ => ⟨S4000x512, .bf16⟩
  | .local _ .vmem, ⟨10, _⟩ => ⟨S2000x128, .f32⟩
  | .local _ .vmem, ⟨11, _⟩ => ⟨S2000x128, .f32⟩
  | .local _ .vmem, ⟨12, _⟩ => ⟨S2000x512, .f32⟩
  | .local _ .vmem, ⟨13, _⟩ => ⟨S2000x512, .f32⟩
  | .local _ .vmem, ⟨14, _⟩ => ⟨S128x1024, .bf16⟩
  | .local _ .vmem, ⟨15, _⟩ => ⟨S512x1024, .bf16⟩
  | .local _ .vmem, ⟨16, _⟩ => ⟨S1024, .f32⟩
  | .local _ .vmem, ⟨17, _⟩ => ⟨S1024x128, .bf16⟩
  | .local _ .vmem, ⟨18, _⟩ => ⟨S128, .f32⟩
  | .local _ .vmem, ⟨19, _⟩ => ⟨S2000x128, .f32⟩
  | .local _ .vmem, ⟨20, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_0 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S4000x512 : S1x512.Broadcasts S4000x512
  inb_S4000x512_S4000x512_0_0 : ∀ a, (![0, 0] : Fin 2 → Nat) a + S4000x512.size a ≤ S4000x512.size a
  h_S4000x512 : 0 < S4000x512.numel
  packedbf16_S4000x512_S4000x512_0_0 : (Rect.unit (s := S4000x512) ![0, 0] S4000x512.size inb_S4000x512_S4000x512_0_0).PackedRows (EltTy.packing .bf16)
  bcast_S_S20000x512 : S_.BroadcastsInDim S20000x512 (![] : Fin 0 → Fin S20000x512.rank)
  slices_S640x1024_S128x1024_0_0 : S640x1024.Slices ![0, 0] S128x1024
  slices_S640x1024_S512x1024_128_0 : S640x1024.Slices ![128, 0] S512x1024
  bcast_S_S128 : S_.BroadcastsInDim S128 (![] : Fin 0 → Fin S128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  inb_S2000x128_S2000x128_0_0 : ∀ a, (![0, 0] : Fin 2 → Nat) a + S2000x128.size a ≤ S2000x128.size a
  h_S2000x128 : 0 < S2000x128.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2000x1024 : S1x1024.Broadcasts S2000x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  gather_S20000x128_S320000x1_S320000x128_1_0_n_n_0_1_1128_wf : GatherDims.WF S20000x128 S320000x1 S320000x128 [1] [0] [] [0] [] 1 ![1, 128]
  dot_S4000x128_S128x256_S4000x256_1_0_0_1_n_n_wf : DotDims.WF S4000x128 S128x256 S4000x256 [1] [0] [0] [1] [] []
  dot_S4000x256_S256x512_S4000x512_1_0_0_1_n_n_wf : DotDims.WF S4000x256 S256x512 S4000x512 [1] [0] [0] [1] [] []
  scatter_S20000x512_S320000x1_S320000x512_1_0_0_1_wf : ScatterDims.WF S20000x512 S320000x1 S320000x512 [1] [0] [0] 1
  dot_S2000x128_S128x1024_S2000x1024_1_0_0_1_n_n_wf : DotDims.WF S2000x128 S128x1024 S2000x1024 [1] [0] [0] [1] [] []
  dot_S2000x512_S512x1024_S2000x1024_1_0_0_1_n_n_wf : DotDims.WF S2000x512 S512x1024 S2000x1024 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x512.size a ≤ S320000x512.size a
  hwx0_6 : ∀ i : grid0.Coords, EltTy.bits .bf16 = 32 ∨ (Rect.block (s := S320000x512) S4000x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S20000x512.size a
  hwx1_1 : ∀ i : grid1.Coords, EltTy.bits .f32 = 32 ∨ (Rect.block (s := S20000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .bf16 = 32 ∨ (Rect.block (s := S128x1024) S128x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .bf16 = 32 ∨ (Rect.block (s := S1024x128) S1024x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S20000x128.size a
  hwx1_7 : ∀ i : grid1.Coords, EltTy.bits .f32 = 32 ∨ (Rect.block (s := S20000x128) S2000x128.size (cc1_transform_7 i) (hinb1_7 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000x128 : Shape := ⟨2, ![320000, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S640x1024 : Shape := ⟨2, ![640, 1024]⟩
abbrev S1024 : Shape := ⟨1, ![1024]⟩
abbrev S1024x128 : Shape := ⟨2, ![1024, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S320000x512 : Shape := ⟨2, ![320000, 512]⟩
abbrev S1x512 : Shape := ⟨2, ![1, 512]⟩
abbrev S20000x512 : Shape := ⟨2, ![20000, 512]⟩
abbrev S20000x640 : Shape := ⟨2, ![20000, 640]⟩
abbrev S20000x1024 : Shape := ⟨2, ![20000, 1024]⟩
abbrev S1x1024 : Shape := ⟨2, ![1, 1024]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S320000x128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S640x1024, .f32⟩
  | .hbm, ⟨8, _⟩ => ⟨S1024, .f32⟩
  | .hbm, ⟨9, _⟩ => ⟨S1024x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x128, .f32⟩
  | .hbm, ⟨28, _⟩ => ⟨S320000x128, .f32⟩
  | .hbm, ⟨29, _⟩ => ⟨S320000x256, .f32⟩
  | .hbm, ⟨30, _⟩ => ⟨S1x256, .f32⟩
  | .hbm, ⟨31, _⟩ => ⟨S320000x256, .f32⟩
  | .hbm, ⟨32, _⟩ => ⟨S320000x256, .f32⟩
  | .hbm, ⟨33, _⟩ => ⟨S_, .f32⟩
  | .hbm, ⟨34, _⟩ => ⟨S320000x256, .f32⟩
  | .hbm, ⟨35, _⟩ => ⟨S320000x256, .i1⟩
  | .hbm, ⟨36, _⟩ => ⟨S_, .f32⟩
  | .hbm, ⟨37, _⟩ => ⟨S320000x256, .f32⟩
  | .hbm, ⟨38, _⟩ => ⟨S320000x256, .f32⟩
  | .hbm, ⟨39, _⟩ => ⟨S320000x256, .f32⟩
  | .hbm, ⟨40, _⟩ => ⟨S320000x512, .f32⟩
  | .hbm, ⟨41, _⟩ => ⟨S1x512, .f32⟩
  | .hbm, ⟨42, _⟩ => ⟨S320000x512, .f32⟩
  | .hbm, ⟨43, _⟩ => ⟨S320000x512, .f32⟩
  | .hbm, ⟨44, _⟩ => ⟨S_, .f32⟩
  | .hbm, ⟨45, _⟩ => ⟨S320000x512, .f32⟩
  | .hbm, ⟨46, _⟩ => ⟨S320000x512, .i1⟩
  | .hbm, ⟨47, _⟩ => ⟨S_, .f32⟩
  | .hbm, ⟨48, _⟩ => ⟨S320000x512, .f32⟩
  | .hbm, ⟨49, _⟩ => ⟨S320000x512, .f32⟩
  | .hbm, ⟨50, _⟩ => ⟨S320000x512, .f32⟩
  | .hbm, ⟨51, _⟩ => ⟨S_, .f32⟩
  | .hbm, ⟨52, _⟩ => ⟨S20000x512, .f32⟩
  | .hbm, ⟨53, _⟩ => ⟨S320000x1, .i32⟩
  | .hbm, ⟨54, _⟩ => ⟨S20000x512, .f32⟩
  | .hbm, ⟨55, _⟩ => ⟨S20000x640, .f32⟩
  | .hbm, ⟨56, _⟩ => ⟨S20000x1024, .f32⟩
  | .hbm, ⟨57, _⟩ => ⟨S1x1024, .f32⟩
  | .hbm, ⟨58, _⟩ => ⟨S20000x1024, .f32⟩
  | .hbm, ⟨59, _⟩ => ⟨S20000x1024, .f32⟩
  | .hbm, ⟨60, _⟩ => ⟨S_, .f32⟩
  | .hbm, ⟨61, _⟩ => ⟨S20000x1024, .f32⟩
  | .hbm, ⟨62, _⟩ => ⟨S20000x1024, .i1⟩
  | .hbm, ⟨63, _⟩ => ⟨S_, .f32⟩
  | .hbm, ⟨64, _⟩ => ⟨S20000x1024, .f32⟩
  | .hbm, ⟨65, _⟩ => ⟨S20000x1024, .f32⟩
  | .hbm, ⟨66, _⟩ => ⟨S20000x1024, .f32⟩
  | .hbm, ⟨67, _⟩ => ⟨S20000x128, .f32⟩
  | .hbm, ⟨68, _⟩ => ⟨S1x128, .f32⟩
  | .hbm, ⟨69, _⟩ => ⟨S20000x128, .f32⟩
  | .hbm, ⟨70, _⟩ => ⟨S20000x128, .f32⟩
  | .hbm, ⟨71, _⟩ => ⟨S1x128, .f32⟩
  | .hbm, ⟨72, _⟩ => ⟨S20000x128, .f32⟩
  | .hbm, ⟨73, _⟩ => ⟨S20000x128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S20000x128, .f32⟩
  | .hbm, ⟨80, _⟩ => ⟨S20000x128, .f32⟩
  | .hbm, ⟨81, _⟩ => ⟨S1x128, .f32⟩
  | .hbm, ⟨82, _⟩ => ⟨S20000x128, .f32⟩
  | .hbm, ⟨83, _⟩ => ⟨S20000x128, .f32⟩
  | .hbm, ⟨84, _⟩ => ⟨S1x128, .f32⟩
  | .hbm, ⟨85, _⟩ => ⟨S20000x128, .f32⟩
  | .hbm, ⟨86, _⟩ => ⟨S20000x128, .f32⟩
  | .hbm, ⟨87, _⟩ => ⟨S20000x128, .f32⟩
  | .hbm, ⟨88, _⟩ => ⟨S_, .f32⟩
  | .hbm, ⟨89, _⟩ => ⟨S20000x128, .f32⟩
  | .hbm, ⟨90, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S_S20000x512 : S_.BroadcastsInDim S20000x512 (![] : Fin 0 → Fin S20000x512.rank)
  concatenates_S20000x128_S20000x512_S20000x640_d1 : Shape.Concatenates [S20000x128, S20000x512] S20000x640 1
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S128 : S_.BroadcastsInDim S128 (![] : Fin 0 → Fin S128.rank)
  bcast_S_S20000x128 : S_.BroadcastsInDim S20000x128 (![] : Fin 0 → Fin S20000x128.rank)
  gather_S20000x128_S320000x1_S320000x128_1_0_n_n_0_1_1128_wf : GatherDims.WF S20000x128 S320000x1 S320000x128 [1] [0] [] [0] [] 1 ![1, 128]
  dot_S320000x128_S128x256_S320000x256_1_0_0_1_n_n_wf : DotDims.WF S320000x128 S128x256 S320000x256 [1] [0] [0] [1] [] []
  dot_S320000x256_S256x512_S320000x512_1_0_0_1_n_n_wf : DotDims.WF S320000x256 S256x512 S320000x512 [1] [0] [0] [1] [] []
  scatter_S20000x512_S320000x1_S320000x512_1_0_0_1_wf : ScatterDims.WF S20000x512 S320000x1 S320000x512 [1] [0] [0] 1
  dot_S20000x640_S640x1024_S20000x1024_1_0_0_1_n_n_wf : DotDims.WF S20000x640 S640x1024 S20000x1024 [1] [0] [0] [1] [] []
  dot_S20000x1024_S1024x128_S20000x128_1_0_0_1_n_n_wf : DotDims.WF S20000x1024 S1024x128 S20000x128 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def dot_S320000x256_S256x512_S320000x512_1_0_0_1_n_n : DotDims S320000x256 S256x512 S320000x512 where
  lhsContracting := [1]
  rhsContracting := [0]
  lhsNonContracting := [0]
  rhsNonContracting := [1]
  lhsBatch := []
  rhsBatch := []
  wf := dot_S320000x256_S256x512_S320000x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x640_S640x1024_S20000x1024_1_0_0_1_n_n : DotDims S20000x640 S640x1024 S20000x1024 where
  lhsContracting := [1]
  rhsContracting := [0]
  lhsNonContracting := [0]
  rhsNonContracting := [1]
  lhsBatch := []
  rhsBatch := []
  wf := dot_S20000x640_S640x1024_S20000x1024_1_0_0_1_n_n_wf
def dot_S20000x1024_S1024x128_S20000x128_1_0_0_1_n_n : DotDims S20000x1024 S1024x128 S20000x128 where
  lhsContracting := [1]
  rhsContracting := [0]
  lhsNonContracting := [0]
  rhsNonContracting := [1]
  lhsBatch := []
  rhsBatch := []
  wf := dot_S20000x1024_S1024x128_S20000x128_1_0_0_1_n_n_wf

class Facts : Prop extends Facts₀ where

variable [Facts]
-- ==== Proof.Spec.lean ====
/-
  The mathematics of the claim, free of any program text.

  A graph layer over N = 20000 nodes with 128 features and E = 320000 edges: each edge e gathers the row
  x0[src e], multiplies it entrywise by the edge's attributes, and sends it through two affine maps, each
  followed by a leaky rectifier (`msg`); the messages are summed into their destination nodes (`aggr`); a node's
  own features and its aggregate go through a third affine map and the rectifier (`hid…`), a fourth affine map,
  an affine normalisation by running statistics (mean, variance, scale gamma, shift beta), and are averaged with
  the node's own features.

  The two programs arrange the last two stages differently.  One splits the third weight matrix into its first
  128 rows and its last 512 (`hidK`) and folds the normalisation into the fourth map's weights and bias
  (`outK`); the other multiplies the concatenated row [x0 | aggr] by the whole matrix (`hidR`) and normalises
  afterwards (`outR`).  Everything is over the extended reals, entry by entry, on plain coordinates.
-/
import Idealize.ShloMosaic.Lib.ValueIdx
import Idealize.ShloMosaic.PureOps.Ideal

noncomputable section

open scoped BigOperators

namespace Cert.Spec

open Idealize.ShloMosaic Idealize.ShloMosaic.ValueIdx

/-- The rectifier's slope on the negative side, the single-precision number nearest 0.01. -/
def slope : EReal := Ideal.ofBits .f32 0x3C23D70A#32
/-- The variance's guard, the single-precision number nearest 1e-5. -/
def eps : EReal := Ideal.ofBits .f32 0x3727C5AC#32
/-- One half. -/
def half : EReal := Ideal.ofBits .f32 0x3F000000#32
/-- Two. -/
def two : EReal := Ideal.ofBits .f32 0x40000000#32

/-- The leaky rectifier: the identity on the non-negative side, multiplication by the slope on the negative. -/
def leaky (x : EReal) : EReal := if (0 : EReal) ≤ x then x else slope * x

/-- An extended real that is a real number. -/
def IsReal (x : EReal) : Prop := ∃ r : ℝ, x = (r : EReal)

/-- The inputs, on plain coordinates: node features, the edges' source and destination node numbers (as signed
    integers), edge attributes, the four affine maps, and the normalisation's statistics. -/
structure Args where
  x0 : Fin 20000 → Fin 128 → EReal
  src : Fin 320000 → ℤ
  dst : Fin 320000 → ℤ
  ea : Fin 320000 → Fin 128 → EReal
  W1 : Fin 128 → Fin 256 → EReal
  b1 : Fin 256 → EReal
  W2 : Fin 256 → Fin 512 → EReal
  b2 : Fin 512 → EReal
  W3 : Fin 640 → Fin 1024 → EReal
  b3 : Fin 1024 → EReal
  W4 : Fin 1024 → Fin 128 → EReal
  b4 : Fin 128 → EReal
  gamma : Fin 128 → EReal
  beta : Fin 128 → EReal
  mean : Fin 128 → EReal
  var : Fin 128 → EReal

/-- Every floating-point input is a real number, entry by entry. -/
def Args.AllReal (A : Args) : Prop :=
  (∀ n d, IsReal (A.x0 n d)) ∧ (∀ e d, IsReal (A.ea e d)) ∧ (∀ d k, IsReal (A.W1 d k)) ∧ (∀ k, IsReal (A.b1 k))
  ∧ (∀ k j, IsReal (A.W2 k j)) ∧ (∀ j, IsReal (A.b2 j)) ∧ (∀ k j, IsReal (A.W3 k j)) ∧ (∀ j, IsReal (A.b3 j))
  ∧ (∀ k c, IsReal (A.W4 k c)) ∧ (∀ c, IsReal (A.b4 c)) ∧ (∀ c, IsReal (A.gamma c)) ∧ (∀ c, IsReal (A.beta c))
  ∧ (∀ c, IsReal (A.mean c)) ∧ (∀ c, IsReal (A.var c))

/-- Every edge's source is a node number. -/
def Args.SrcInRange (A : Args) : Prop := ∀ e, 0 ≤ A.src e ∧ A.src e < 20000

/-- Every running variance is non-negative. -/
def Args.VarNonneg (A : Args) : Prop := ∀ c, (0 : EReal) ≤ A.var c

/-- The node an edge reads: its source number, held into the range of node numbers. -/
def row (src : Fin 320000 → ℤ) (e : Fin 320000) : Fin 20000 := ⟨min (src e).toNat 19999, by omega⟩

variable (A : Args)

/-- The first layer of an edge's message. -/
def msg1 (e : Fin 320000) (k : Fin 256) : EReal :=
  leaky ((∑ d : Fin 128, (A.x0 (row A.src e) d * A.ea e d) * A.W1 d k) + A.b1 k)

/-- An edge's message. -/
def msg (e : Fin 320000) (j : Fin 512) : EReal :=
  leaky ((∑ k : Fin 256, msg1 A e k * A.W2 k j) + A.b2 j)

/-- A node's aggregate: the sum of the messages of the edges that end at it. -/
def aggr (n : Fin 20000) (j : Fin 512) : EReal :=
  ∑ e ∈ Finset.univ.filter (fun e : Fin 320000 => A.dst e = (n.val : ℤ)), msg A e j

/-- The hidden layer of the node update, the third matrix split into its first 128 and last 512 rows. -/
def hidK (n : Fin 20000) (j : Fin 1024) : EReal :=
  leaky (((∑ k : Fin 128, A.x0 n k * A.W3 ⟨k.val, by omega⟩ j)
      + (∑ k : Fin 512, aggr A n k * A.W3 ⟨128 + k.val, by omega⟩ j)) + A.b3 j)

/-- A node's own features followed by its aggregate, as one row of length 640. -/
def cat (n : Fin 20000) (k : Fin 640) : EReal :=
  if h : k.val < 128 then A.x0 n ⟨k.val, h⟩ else aggr A n ⟨k.val - 128, by omega⟩

/-- The hidden layer of the node update, the concatenated row against the whole third matrix. -/
def hidR (n : Fin 20000) (j : Fin 1024) : EReal :=
  leaky ((∑ k : Fin 640, cat A n k * A.W3 k j) + A.b3 j)

/-- The running standard deviation, guarded. -/
def sd (c : Fin 128) : EReal := Ideal.sqrt (A.var c + eps)

/-- The normalisation's factor, gamma over the standard deviation. -/
def scale (c : Fin 128) : EReal := Ideal.div (A.gamma c) (sd A c)

/-- The result with the normalisation folded into the fourth map. -/
def outK (n : Fin 20000) (c : Fin 128) : EReal :=
  (((∑ k : Fin 1024, hidK A n k * (A.W4 k c * scale A c)) + ((A.b4 c - A.mean c) * scale A c + A.beta c))
    + A.x0 n c) * half

/-- The result with the normalisation applied after the fourth map. -/
def outR (n : Fin 20000) (c : Fin 128) : EReal :=
  Ideal.div ((Ideal.div (((∑ k : Fin 1024, hidR A n k * A.W4 k c) + A.b4 c) - A.mean c) (sd A c) * A.gamma c + A.beta c)
    + A.x0 n c) two

/-- The inputs of the programs, as arrays, read on plain coordinates. -/
def argsOf (a0 : FVec Ideal ⟨2, ![20000, 128]⟩ .f32) (a1 : IVec ⟨2, ![2, 320000]⟩ 32)
    (a2 : FVec Ideal ⟨2, ![320000, 128]⟩ .f32) (a3 : FVec Ideal ⟨2, ![128, 256]⟩ .f32) (a4 : FVec Ideal ⟨1, ![256]⟩ .f32)
    (a5 : FVec Ideal ⟨2, ![256, 512]⟩ .f32) (a6 : FVec Ideal ⟨1, ![512]⟩ .f32) (a7 : FVec Ideal ⟨2, ![640, 1024]⟩ .f32)
    (a8 : FVec Ideal ⟨1, ![1024]⟩ .f32) (a9 : FVec Ideal ⟨2, ![1024, 128]⟩ .f32) (a10 : FVec Ideal ⟨1, ![128]⟩ .f32)
    (a11 : FVec Ideal ⟨1, ![128]⟩ .f32) (a12 : FVec Ideal ⟨1, ![128]⟩ .f32) (a13 : FVec Ideal ⟨1, ![128]⟩ .f32)
    (a14 : FVec Ideal ⟨1, ![128]⟩ .f32) : Args where
  x0 n d := a0 (ix2 n d)
  src e := (a1 (ix2 (0 : Fin 2) e)).toInt
  dst e := (a1 (ix2 (1 : Fin 2) e)).toInt
  ea e d := a2 (ix2 e d)
  W1 d k := a3 (ix2 d k)
  b1 k := a4 (ix1 k)
  W2 k j := a5 (ix2 k j)
  b2 j := a6 (ix1 j)
  W3 k j := a7 (ix2 k j)
  b3 j := a8 (ix1 j)
  W4 k c := a9 (ix2 k c)
  b4 c := a10 (ix1 c)
  gamma c := a11 (ix1 c)
  beta c := a12 (ix1 c)
  mean c := a13 (ix1 c)
  var c := a14 (ix1 c)

end Cert.Spec

end
-- ==== Proof.KArgs.lean ====
/-
  The two programs' inputs, read off a launch memory on plain coordinates.
-/
import proofs.«411389_j20023137533996_3_alg».proof.KernelIdeal
import proofs.«411389_j20023137533996_3_alg».proof.ReferenceIdeal
import proofs.«411389_j20023137533996_3_alg».proof.Proof.Spec

noncomputable section

open Idealize.ShloMosaic Idealize.SL.Sem

/-- The inputs of the first program at a launch memory, on plain coordinates. -/
def Cert.KernelIdeal.argsK (m : (ℓ : Loc Cert.KernelIdeal.nD Cert.KernelIdeal.τ Cert.KernelIdeal.sig) → Buf (Elt Ideal) ℓ)
    (c : Dev Cert.KernelIdeal.nD) : Cert.Spec.Args :=
  Cert.Spec.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))

/-- The inputs of the second program at a launch memory, on plain coordinates. -/
def Cert.ReferenceIdeal.argsR (m : (ℓ : Loc Cert.ReferenceIdeal.nD Cert.ReferenceIdeal.τ Cert.ReferenceIdeal.sig) → Buf (Elt Ideal) ℓ)
    (c : Dev Cert.ReferenceIdeal.nD) : Cert.Spec.Args :=
  Cert.Spec.argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))

end
-- ==== Proof.Algebra.lean ====
/-
  The two arrangements of the node update agree on real inputs with non-negative variances.

  The extended reals do not distribute products over sums at the infinities, so the argument first shows that
  every intermediate quantity of the layer is a real number (the inputs are, and sums, products and the leaky
  rectifier keep real numbers real).  The split of the third matrix by rows is a regrouping of a finite sum and
  holds in any commutative monoid.  Folding the normalisation into the fourth map is then an identity between
  real numbers: the standard deviation is the square root of a positive real, so it is a positive real, dividing
  by it is multiplying by its reciprocal, and the reciprocal moves through the finite sum.
-/
import proofs.«411389_j20023137533996_3_alg».proof.Proof.Spec
import Mathlib.Algebra.BigOperators.Fin

noncomputable section

open scoped BigOperators

namespace Cert.Spec

open Idealize.ShloMosaic

/-! ### The four constants as real numbers -/

/-- The pattern 0x3F000000 (exponent field 126, significand field 0) denotes 2^23 · 2^(126 - 127 - 23) = 1/2. -/
theorem half_eq : half = ((1 / 2 : ℝ) : EReal) := by
  unfold half
  simp [Ideal.ofBits, Ideal.ieee, -EReal.coe_mul]; norm_num

/-- The pattern 0x40000000 (exponent field 128, significand field 0) denotes 2^23 · 2^(128 - 127 - 23) = 2. -/
theorem two_eq : two = ((2 : ℝ) : EReal) := by
  unfold two
  simp [Ideal.ofBits, Ideal.ieee, -EReal.coe_mul]; norm_num

/-- The slope's pattern has exponent field 120, not all ones: it denotes a real number. -/
theorem slope_real : IsReal slope := by
  unfold slope
  simp [Ideal.ofBits, Ideal.ieee, -EReal.coe_mul]
  exact ⟨_, rfl⟩

/-- The guard's pattern has sign bit 0 and exponent field 110: it denotes a positive real number. -/
theorem eps_pos : ∃ e : ℝ, 0 < e ∧ eps = (e : EReal) := by
  unfold eps
  simp [Ideal.ofBits, Ideal.ieee, -EReal.coe_mul]

/-! ### Real numbers among the extended reals -/

theorem IsReal.zero : IsReal 0 := ⟨0, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The leaky rectifier of a real number is a real number: either the number itself or its product with the slope. -/
theorem IsReal.leaky {x : EReal} (hx : IsReal x) : IsReal (leaky x) := by
  unfold Cert.Spec.leaky
  split_ifs
  · exact hx
  · exact slope_real.mul hx

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Every stage of the layer is a real number on real inputs -/

theorem isReal_msg1 (A : Args) (hreal : A.AllReal) (e : Fin 320000) (k : Fin 256) : IsReal (msg1 A e k) := by
  obtain ⟨hx0, hea, hW1, hb1, -⟩ := hreal
  unfold msg1
  exact IsReal.leaky (IsReal.add (IsReal.sum _ _ fun d _ => ((hx0 _ d).mul (hea e d)).mul (hW1 d k)) (hb1 k))

theorem isReal_msg (A : Args) (hreal : A.AllReal) (e : Fin 320000) (j : Fin 512) : IsReal (msg A e j) := by
  have h1 := isReal_msg1 A hreal
  obtain ⟨-, -, -, -, hW2, hb2, -⟩ := hreal
  unfold msg
  exact IsReal.leaky (IsReal.add (IsReal.sum _ _ fun k _ => (h1 e k).mul (hW2 k j)) (hb2 j))

theorem isReal_aggr (A : Args) (hreal : A.AllReal) (n : Fin 20000) (j : Fin 512) : IsReal (aggr A n j) := by
  unfold aggr
  exact IsReal.sum _ _ fun e _ => isReal_msg A hreal e j

theorem isReal_cat (A : Args) (hreal : A.AllReal) (n : Fin 20000) (k : Fin 640) : IsReal (cat A n k) := by
  unfold cat
  split_ifs with h
  · exact hreal.1 n _
  · exact isReal_aggr A hreal n _

theorem isReal_hidR (A : Args) (hreal : A.AllReal) (n : Fin 20000) (j : Fin 1024) : IsReal (hidR A n j) := by
  have hc := isReal_cat A hreal n
  obtain ⟨-, -, -, -, -, -, hW3, hb3, -⟩ := hreal
  unfold hidR
  exact IsReal.leaky (IsReal.add (IsReal.sum _ _ fun k _ => (hc k).mul (hW3 k j)) (hb3 j))

/-! ### The third matrix split by rows -/

/-- A sum over 640 indices is the sum over the first 128 plus the sum over the last 512. -/
theorem sum_fin640 {M : Type*} [AddCommMonoid M] (f : Fin 640 → M) :
    ∑ k : Fin 640, f k
      = (∑ k : Fin 128, f ⟨k.val, by omega⟩) + ∑ k : Fin 512, f ⟨128 + k.val, by omega⟩ :=
  Fin.sum_univ_add (a := 128) (b := 512) f

/-- The hidden layer does not depend on whether the third matrix is applied whole to the concatenated row or
    in two blocks of rows to its two parts. -/
theorem hidK_eq_hidR (A : Args) (n : Fin 20000) (j : Fin 1024) : hidK A n j = hidR A n j := by
  have h1 : ∀ k : Fin 128, cat A n ⟨k.val, by omega⟩ = A.x0 n k := fun k => by
    unfold cat
    rw [dif_pos k.isLt]
  have h2 : ∀ k : Fin 512, cat A n ⟨128 + k.val, by omega⟩ = aggr A n k := fun k => by
    unfold cat
    rw [dif_neg (by simp)]
    congr 1
    apply Fin.ext
    simp
  unfold hidK hidR
  rw [sum_fin640]
  simp only [h1, h2]

/-- On real inputs whose running variances are non-negative, folding the normalisation into the fourth affine map
    and splitting the third matrix by rows changes nothing. -/
theorem outK_eq_outR (A : Args) (hreal : A.AllReal) (hvar : A.VarNonneg) (n : Fin 20000) (c : Fin 128) :
    outK A n c = outR A n c := by
  -- real representatives of the hidden layer and of the inputs met at column c
  have H : ∀ k, ∃ r : ℝ, hidR A n k = (r : EReal) := isReal_hidR A hreal n
  choose h hh using H
  obtain ⟨hx0, -, -, -, -, -, -, -, hW4, hb4, hgamma, hbeta, hmean, hvarR⟩ := hreal
  have HW : ∀ k, ∃ r : ℝ, A.W4 k c = (r : EReal) := fun k => hW4 k c
  choose w hw using HW
  obtain ⟨b, hb⟩ := hb4 c
  obtain ⟨g, hg⟩ := hgamma c
  obtain ⟨bt, hbt⟩ := hbeta c
  obtain ⟨m, hm⟩ := hmean c
  obtain ⟨v, hv⟩ := hvarR c
  obtain ⟨x, hx⟩ := hx0 n c
  obtain ⟨e, he0, he⟩ := eps_pos
  have hv0 : 0 ≤ v := by
    have := hvar c
    rw [hv] at this
    exact EReal.coe_nonneg.mp this
  -- the standard deviation is a positive real, and the factor is gamma times its reciprocal
  have hspos : 0 < Real.sqrt (v + e) := Real.sqrt_pos.mpr (by linarith)
  have hsd : sd A c = ((Real.sqrt (v + e) : ℝ) : EReal) := by
    unfold sd
    rw [hv, he, ← EReal.coe_add, Ideal.sqrt_coe, if_neg (by linarith)]
  have hscale : scale A c = ((g * (1 / Real.sqrt (v + e)) : ℝ) : EReal) := by
    unfold scale
    rw [hsd, Ideal.div_coe hspos.ne', hg, ← EReal.coe_mul]
  unfold outK outR
  simp only [hidK_eq_hidR]
  rw [hscale, hsd, two_eq, half_eq, Ideal.div_coe hspos.ne', Ideal.div_coe (by norm_num : (2 : ℝ) ≠ 0)]
  simp only [hh, hw, hb, hg, hbt, hm, hx]
  simp only [← EReal.coe_mul, ← EReal.coe_add, ← EReal.coe_sub, ← coe_sum]
  congr 1
  -- the identity between real numbers: the reciprocal moves through the sum
  have hsum : ∑ k : Fin 1024, h k * (w k * (g * (1 / Real.sqrt (v + e))))
      = (∑ k : Fin 1024, h k * w k) * (g * (1 / Real.sqrt (v + e))) := by
    rw [Finset.sum_mul]
    exact Finset.sum_congr rfl fun k _ => by ring
  rw [hsum]
  ring

end Cert.Spec

end
-- ==== Proof.PreFacts.lean ====
/-
  What the stated domain says of the inputs: every floating-point entry is a real number, every edge's source is a
  node number, every running variance is non-negative.
-/
import proofs.«411389_j20023137533996_3_alg».proof.Pre_finite_inputs
import proofs.«411389_j20023137533996_3_alg».proof.Proof.Gen.Pre_finite_inputs
import proofs.«411389_j20023137533996_3_alg».proof.Proof.Spec
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreFacts

open Idealize.ShloMosaic Idealize.ShloMosaic.ValueIdx Cert.Spec

/-! ## The scalars the domain compares against -/

/-- The single-precision pattern with an all-ones exponent and a zero fraction is plus infinity. -/
theorem inf_bits : Ideal.ofBits .f32 0x7F800000#32 = (⊤ : EReal) := by
  simp [Ideal.ofBits, Ideal.ieee]

/-- The all-zero single-precision pattern is zero. -/
theorem zero_bits : Ideal.ofBits .f32 0x00000000#32 = (0 : EReal) := by
  simp [Ideal.ofBits, Ideal.ieee]

/-- An extended real whose absolute value, max x (-x), is below plus infinity is a real number: at minus infinity
    the negation is plus infinity, at plus infinity the number itself is. -/
theorem isReal_of_abs_lt_top (x : EReal) (h : max x (-x) < ⊤) : IsReal x := by
  induction x using EReal.rec with
  | bot => simp at h
  | top => simp at h
  | coe r => exact ⟨r, rfl⟩

/-- A 32-bit word that compares signed-greater-or-equal to the zero word has a non-negative signed value. -/
theorem toInt_nonneg_of_sge (w : BitVec 32) (h : IntOp.cmpi .sge w 0#32 = 1#1) : 0 ≤ w.toInt := by
  unfold IntOp.cmpi at h
  rw [StableHlo.Predicate.ofBool_eq_one_iff] at h
  simpa [BitVec.sle] using h

/-- A 32-bit word that compares signed-less to the word 20000 has a signed value below 20000. -/
theorem toInt_lt_of_slt (w : BitVec 32) (h : IntOp.cmpi .slt w 20000#32 = 1#1) : w.toInt < 20000 := by
  unfold IntOp.cmpi at h
  rw [StableHlo.Predicate.ofBool_eq_one_iff] at h
  have e : (20000#32 : BitVec 32).toInt = 20000 := by decide
  simpa [BitVec.slt, e] using h

/-! ## One conjunct of each shape, read at an element -/

/-- The scalar shape has one index. -/
instance : Subsingleton (⟨0, ![]⟩ : Shape).Idx := ⟨fun a b => funext fun d => d.elim0⟩

/-- A conjunction of two one-bit scalars read at an index is the conjunction of the two readings. -/
theorem andi_apply_eq_one {s : Shape} (x y : IVec s 1) (i : s.Idx) :
    andi x y i = 1#1 ↔ x i = 1#1 ∧ y i = 1#1 := IntOp.andi_eq_one

/-- ALL ENTRIES FINITE. If "|x| < +inf" holds at every entry of an array of any shape (the comparison reduced by
    `and` over all axes came out 1), every entry of the array is a real number. -/
theorem allFinite_of {S : Shape} (x : FVec Ideal S .f32)
    (bc : (⟨0, ![]⟩ : Shape).BroadcastsInDim S (![] : Fin 0 → Fin S.rank))
    {axes : List (Fin S.rank)} (hr : S.ReducesTo axes ⟨0, ![]⟩) (hu : 0 < (⟨0, ![]⟩ : Shape).numel)
    (h : Host.reduce IntOp.andi
        (cmpf .olt (Host.absf x) (broadcastInDim S ![] bc (constant (F := Ideal) ⟨0, ![]⟩ .f32 0x7F800000#32)))
        (constantI ⟨0, ![]⟩ 1 1#1) hr hu ix0 = 1#1) :
    ∀ i, IsReal (x i) := by
  intro i
  have e := Host.reduce_andi_all _ _ hr hu ix0 h i
  have e' : Ideal.cmp .olt (max (x i) (-(x i))) (Ideal.ofBits .f32 0x7F800000#32) = 1#1 := e
  rw [inf_bits] at e'
  unfold Ideal.cmp at e'
  rw [StableHlo.Predicate.ofBool_eq_one_iff, decide_eq_true_eq] at e'
  exact isReal_of_abs_lt_top _ e'

/-- ALL ENTRIES NON-NEGATIVE. If "x ≥ 0.0" holds at every entry of an array, every entry is at least zero. -/
theorem allNonneg_of {S : Shape} (x : FVec Ideal S .f32)
    (bc : (⟨0, ![]⟩ : Shape).BroadcastsInDim S (![] : Fin 0 → Fin S.rank))
    {axes : List (Fin S.rank)} (hr : S.ReducesTo axes ⟨0, ![]⟩) (hu : 0 < (⟨0, ![]⟩ : Shape).numel)
    (h : Host.reduce IntOp.andi
        (cmpf .oge x (broadcastInDim S ![] bc (constant (F := Ideal) ⟨0, ![]⟩ .f32 0x00000000#32)))
        (constantI ⟨0, ![]⟩ 1 1#1) hr hu ix0 = 1#1) :
    ∀ i, (0 : EReal) ≤ x i := by
  intro i
  have e := Host.reduce_andi_all _ _ hr hu ix0 h i
  have e' : Ideal.cmp .oge (x i) (Ideal.ofBits .f32 0x00000000#32) = 1#1 := e
  rw [zero_bits] at e'
  unfold Ideal.cmp at e'
  rw [StableHlo.Predicate.ofBool_eq_one_iff, decide_eq_true_eq] at e'
  exact e'

/-- Row 0 of the [2 × 320000] edge list, sliced out and flattened, reads at edge e the list's entry (0, e). -/
theorem row0_apply (a1 : IVec ⟨2, ![2, 320000]⟩ 32)
    (hs : (⟨2, ![2, 320000]⟩ : Shape).Slices ![0, 0] ⟨2, ![1, 320000]⟩)
    (hc : (⟨2, ![1, 320000]⟩ : Shape).ShapeCasts ⟨1, ![320000]⟩) (e : Fin 320000) :
    shapeCast ⟨1, ![320000]⟩ (extractStridedSlice ⟨2, ![1, 320000]⟩ ![0, 0] a1 hs) hc (ix1 e) = a1 (ix2 (0 : Fin 2) e) := by
  refine (shapeCast_apply _ hc (ix1 e) (ix2 (0 : Fin 1) e) ?_).trans ?_
  · rw [Shape.rowMajor_val_two, Shape.rowMajor_val_one]
    show 0 * 320000 + e.val = e.val
    omega
  · exact extractStridedSlice_apply ![0, 0] a1 hs (ix2 (0 : Fin 1) e) (ix2 (0 : Fin 2) e) (fun a => match a with
      | ⟨0, _⟩ => by show (0 : Nat) = 0 + 0; omega
      | ⟨1, _⟩ => by show e.val = 0 + e.val; omega)

/-- SOURCES NOT BELOW ZERO. If "row 0 ≥ 0" holds at every edge, every source number is non-negative. -/
theorem allSge_of (a1 : IVec ⟨2, ![2, 320000]⟩ 32)
    (hs : (⟨2, ![2, 320000]⟩ : Shape).Slices ![0, 0] ⟨2, ![1, 320000]⟩)
    (hc : (⟨2, ![1, 320000]⟩ : Shape).ShapeCasts ⟨1, ![320000]⟩)
    (bc : (⟨0, ![]⟩ : Shape).BroadcastsInDim ⟨1, ![320000]⟩ (![] : Fin 0 → Fin 1))
    {axes : List (Fin 1)} (hr : (⟨1, ![320000]⟩ : Shape).ReducesTo axes ⟨0, ![]⟩) (hu : 0 < (⟨0, ![]⟩ : Shape).numel)
    (h : Host.reduce IntOp.andi
        (cmpi .sge (shapeCast ⟨1, ![320000]⟩ (extractStridedSlice ⟨2, ![1, 320000]⟩ ![0, 0] a1 hs) hc)
          (broadcastInDim ⟨1, ![320000]⟩ ![] bc (constantI ⟨0, ![]⟩ 32 0#32)))
        (constantI ⟨0, ![]⟩ 1 1#1) hr hu ix0 = 1#1) :
    ∀ e : Fin 320000, 0 ≤ (a1 (ix2 (0 : Fin 2) e)).toInt := by
  intro e
  have q := Host.reduce_andi_all _ _ hr hu ix0 h (ix1 e)
  have q' : IntOp.cmpi .sge
      (shapeCast ⟨1, ![320000]⟩ (extractStridedSlice ⟨2, ![1, 320000]⟩ ![0, 0] a1 hs) hc (ix1 e)) 0#32 = 1#1 := q
  rw [row0_apply] at q'
  exact toInt_nonneg_of_sge _ q'

/-- SOURCES BELOW THE NODE COUNT. If "row 0 < 20000" holds at every edge, every source number is below 20000. -/
theorem allSlt_of (a1 : IVec ⟨2, ![2, 320000]⟩ 32)
    (hs : (⟨2, ![2, 320000]⟩ : Shape).Slices ![0, 0] ⟨2, ![1, 320000]⟩)
    (hc : (⟨2, ![1, 320000]⟩ : Shape).ShapeCasts ⟨1, ![320000]⟩)
    (bc : (⟨0, ![]⟩ : Shape).BroadcastsInDim ⟨1, ![320000]⟩ (![] : Fin 0 → Fin 1))
    {axes : List (Fin 1)} (hr : (⟨1, ![320000]⟩ : Shape).ReducesTo axes ⟨0, ![]⟩) (hu : 0 < (⟨0, ![]⟩ : Shape).numel)
    (h : Host.reduce IntOp.andi
        (cmpi .slt (shapeCast ⟨1, ![320000]⟩ (extractStridedSlice ⟨2, ![1, 320000]⟩ ![0, 0] a1 hs) hc)
          (broadcastInDim ⟨1, ![320000]⟩ ![] bc (constantI ⟨0, ![]⟩ 32 20000#32)))
        (constantI ⟨0, ![]⟩ 1 1#1) hr hu ix0 = 1#1) :
    ∀ e : Fin 320000, (a1 (ix2 (0 : Fin 2) e)).toInt < 20000 := by
  intro e
  have q := Host.reduce_andi_all _ _ hr hu ix0 h (ix1 e)
  have q' : IntOp.cmpi .slt
      (shapeCast ⟨1, ![320000]⟩ (extractStridedSlice ⟨2, ![1, 320000]⟩ ![0, 0] a1 hs) hc (ix1 e)) 20000#32 = 1#1 := q
  rw [row0_apply] at q'
  exact toInt_lt_of_slt _ q'

/-! ## The stated domain -/

/-- The stated domain, decoded. -/
theorem of_pre (a0 : FVec Ideal ⟨2, ![20000, 128]⟩ .f32) (a1 : IVec ⟨2, ![2, 320000]⟩ 32)
    (a2 : FVec Ideal ⟨2, ![320000, 128]⟩ .f32) (a3 : FVec Ideal ⟨2, ![128, 256]⟩ .f32) (a4 : FVec Ideal ⟨1, ![256]⟩ .f32)
    (a5 : FVec Ideal ⟨2, ![256, 512]⟩ .f32) (a6 : FVec Ideal ⟨1, ![512]⟩ .f32) (a7 : FVec Ideal ⟨2, ![640, 1024]⟩ .f32)
    (a8 : FVec Ideal ⟨1, ![1024]⟩ .f32) (a9 : FVec Ideal ⟨2, ![1024, 128]⟩ .f32) (a10 : FVec Ideal ⟨1, ![128]⟩ .f32)
    (a11 : FVec Ideal ⟨1, ![128]⟩ .f32) (a12 : FVec Ideal ⟨1, ![128]⟩ .f32) (a13 : FVec Ideal ⟨1, ![128]⟩ .f32)
    (a14 : FVec Ideal ⟨1, ![128]⟩ .f32)
    (h : Cert.Pre_finite_inputs.fn (F := Ideal) a0 a1 a2 a3 a4 a5 a6 a7 a8 a9 a10 a11 a12 a13 a14 = fun _ => 1#1) :
    (argsOf a0 a1 a2 a3 a4 a5 a6 a7 a8 a9 a10 a11 a12 a13 a14).AllReal ∧ (argsOf a0 a1 a2 a3 a4 a5 a6 a7 a8 a9 a10 a11 a12 a13 a14).SrcInRange ∧ (argsOf a0 a1 a2 a3 a4 a5 a6 a7 a8 a9 a10 a11 a12 a13 a14).VarNonneg := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi_apply_eq_one] at h0
  obtain ⟨⟨⟨⟨⟨⟨⟨⟨⟨⟨⟨⟨⟨⟨⟨⟨f0, f2⟩, f3⟩, f4⟩, f5⟩, f6⟩, f7⟩, f8⟩, f9⟩, f10⟩, f11⟩, f12⟩, f13⟩, f14⟩, g0⟩, g1⟩, v⟩ := h0
  have r0 := allFinite_of a0 _ _ _ f0
  have r2 := allFinite_of a2 _ _ _ f2
  have r3 := allFinite_of a3 _ _ _ f3
  have r4 := allFinite_of a4 _ _ _ f4
  have r5 := allFinite_of a5 _ _ _ f5
  have r6 := allFinite_of a6 _ _ _ f6
  have r7 := allFinite_of a7 _ _ _ f7
  have r8 := allFinite_of a8 _ _ _ f8
  have r9 := allFinite_of a9 _ _ _ f9
  have r10 := allFinite_of a10 _ _ _ f10
  have r11 := allFinite_of a11 _ _ _ f11
  have r12 := allFinite_of a12 _ _ _ f12
  have r13 := allFinite_of a13 _ _ _ f13
  have r14 := allFinite_of a14 _ _ _ f14
  have s0 := allSge_of a1 _ _ _ _ _ g0
  have s1 := allSlt_of a1 _ _ _ _ _ g1
  have vn := allNonneg_of a14 _ _ _ v
  unfold Args.AllReal Args.SrcInRange Args.VarNonneg
  exact ⟨⟨fun n d => r0 (ix2 n d), fun e d => r2 (ix2 e d), fun d k => r3 (ix2 d k), fun k => r4 (ix1 k),
      fun k j => r5 (ix2 k j), fun j => r6 (ix1 j), fun k j => r7 (ix2 k j), fun j => r8 (ix1 j),
      fun k c => r9 (ix2 k c), fun c => r10 (ix1 c), fun c => r11 (ix1 c), fun c => r12 (ix1 c),
      fun c => r13 (ix1 c), fun c => r14 (ix1 c)⟩,
    fun e => ⟨s0 e, s1 e⟩, fun c => vn (ix1 c)⟩

end Cert.PreFacts

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.RefValue.lean ====
/-
  The second program's result, entry by entry: the node update with the normalisation applied after the fourth map.
-/
import proofs.«411389_j20023137533996_3_alg».proof.Proof.Gen.ReferenceIdeal.Read
import proofs.«411389_j20023137533996_3_alg».proof.Proof.Spec
import proofs.«411389_j20023137533996_3_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx Cert.Spec

/-! ## Two scalar facts: a sign test on a word, and the rectifier as a select -/

/-- A signed word that is not negative is not below the zero word. -/
theorem cmpi_slt_zero_of_nonneg (s : BitVec 32) (h : 0 ≤ s.toInt) : IntOp.cmpi .slt s 0#32 = 0#1 := by
  unfold IntOp.cmpi
  have : s.slt 0#32 = false := by
    rw [BitVec.slt_eq_decide, BitVec.toInt_zero]
    exact decide_eq_false (by omega)
  rw [this]; rfl

/-- The rectifier as the program spells it: a select on "not below zero" between the value and the slope
    times the value. -/
theorem select_leaky (h : EReal) :
    Scalar.select (FloatOps.cmpf (F := Ideal) (φ := .f32) .oge h (FloatOps.ofBits (F := Ideal) .f32 0x00000000#32)) h
      (FloatOps.mulf (F := Ideal) (φ := .f32) (FloatOps.ofBits (F := Ideal) .f32 0x3C23D70A#32) h) = leaky h := by
  rw [Ideal.cmpf_def, Ideal.ofBits_def, Ideal.ofBits_zero_f32]
  have hc : Ideal.cmp .oge h 0 = BitVec.ofBool (decide ((0 : EReal) ≤ h)) := rfl
  rw [hc]
  unfold leaky Scalar.select
  by_cases hh : (0 : EReal) ≤ h
  · rw [if_pos hh, decide_eq_true hh]; exact if_pos rfl
  · rw [if_neg hh, decide_eq_false hh]; exact if_neg (by decide)

/-! ## The stages, each read at one entry

Every lemma below reads one stage of the program at explicit coordinates: an edge `e` and a feature, or a node
`n` and a feature. The index functions the stages compose are identified with plain coordinates one at a time. -/

section Stages
variable (x0 : (⟨S20000x128, .f32⟩ : BufTy).Contents (Elt Ideal)) (x1 : (⟨S2x320000, .i32⟩ : BufTy).Contents (Elt Ideal))
    (x2 : (⟨S320000x128, .f32⟩ : BufTy).Contents (Elt Ideal)) (x3 : (⟨S128x256, .f32⟩ : BufTy).Contents (Elt Ideal))
    (x4 : (⟨S256, .f32⟩ : BufTy).Contents (Elt Ideal)) (x5 : (⟨S256x512, .f32⟩ : BufTy).Contents (Elt Ideal))
    (x6 : (⟨S512, .f32⟩ : BufTy).Contents (Elt Ideal)) (x7 : (⟨S640x1024, .f32⟩ : BufTy).Contents (Elt Ideal))
    (x8 : (⟨S1024, .f32⟩ : BufTy).Contents (Elt Ideal)) (x9 : (⟨S1024x128, .f32⟩ : BufTy).Contents (Elt Ideal))
    (x10 x11 x12 x13 x14 : (⟨S128, .f32⟩ : BufTy).Contents (Elt Ideal))

local notation "𝒜" => argsOf x0 x1 x2 x3 x4 x5 x6 x7 x8 x9 x10 x11 x12 x13 x14
/-- Under the range hypothesis the wrapped source word of an edge is the source word itself. -/
theorem src_eq (hsrc : (𝒜).SrcInRange) (e : Fin 320000) :
    val_main_v8 (F := Ideal) x1 (ix1 e) = x1 (ix2 (0 : Fin 2) e) := by
  have hidx : idx_main_v0 (idx_main_v1 (ix1 e)) = ix2 (0 : Fin 2) e :=
    funext fun a => Fin.ext (by
      match a with
      | ⟨0, _⟩ => rfl
      | ⟨1, _⟩ => exact Nat.mod_eq_of_lt e.isLt)
  have h0 : 0 ≤ (x1 (ix2 (0 : Fin 2) e)).toInt := (hsrc e).1
  rw [val_main_v8_apply, val_main_v5_apply, val_main_v4_apply, val_main_c_apply, val_main_v1_apply, val_main_v0_apply, hidx,
    cmpi_slt_zero_of_nonneg _ h0]
  exact select_zero _ _

/-- The gathered row of an edge is the row of its source node. -/
theorem gather_eq (hsrc : (𝒜).SrcInRange) (e : Fin 320000) (d : Fin 128) :
    val_main_v10 (F := Ideal) x0 x1 (ix2 e d) = (𝒜).x0 (row (𝒜).src e) d := by
  unfold val_main_v10
  have hrec : gather_S20000x128_S320000x1_S320000x128_1_0_n_n_0_1_1128
      = rowGatherDims 20000 320000 128 gather_S20000x128_S320000x1_S320000x128_1_0_n_n_0_1_1128_wf := rfl
  rw [hrec, rowGather_apply (by decide)]
  have h9 : val_main_v9 (F := Ideal) x1 (ix2 e (0 : Fin 1)) = x1 (ix2 (0 : Fin 2) e) := by
    rw [val_main_v9_apply]
    have : idx_main_v9 (ix2 e (0 : Fin 1)) = ix1 e := funext fun a => Fin.ext (by match a with | ⟨0, _⟩ => rfl)
    rw [this]; exact src_eq x0 x1 x2 x3 x4 x5 x6 x7 x8 x9 x10 x11 x12 x13 x14 hsrc e
  refine congrArg (fun r : Fin 20000 => x0 (ix2 r d)) (Fin.ext ?_)
  show min (val_main_v9 (F := Ideal) x1 (ix2 e (0 : Fin 1))).toInt.toNat (20000 - 1) = min ((𝒜).src e).toNat 19999
  rw [h9]
  rfl

/-- The first affine map of an edge's message, before the rectifier. -/
theorem pre1_eq (hsrc : (𝒜).SrcInRange) (e : Fin 320000) (k : Fin 256) :
    val_main_v15 (F := Ideal) x0 x1 x2 x3 x4 (ix2 e k)
      = (∑ d : Fin 128, ((𝒜).x0 (row (𝒜).src e) d * (𝒜).ea e d) * (𝒜).W1 d k) + (𝒜).b1 k := by
  have hb : idx_main_v13 (idx_main_v14 (ix2 e k)) = ix1 k := funext fun a => Fin.ext (by match a with | ⟨0, _⟩ => rfl)
  rw [val_main_v15_apply, val_main_v12_apply, val_main_v14_apply, val_main_v13_apply, hb, Ideal.addf_def]
  refine congrArg₂ (· + ·) (Finset.sum_congr rfl fun d _ => ?_) rfl
  have hl : lidx_main_v12 (ix2 e k) d = ix2 e d := funext fun a => Fin.ext (by match a with | ⟨0, _⟩ => rfl | ⟨1, _⟩ => rfl)
  have hr : ridx_main_v12 (ix2 e k) d = ix2 d k := funext fun a => Fin.ext (by match a with | ⟨0, _⟩ => rfl | ⟨1, _⟩ => rfl)
  rw [hl, hr, val_main_v11_apply, gather_eq x0 x1 x2 x3 x4 x5 x6 x7 x8 x9 x10 x11 x12 x13 x14 hsrc e d]
  rfl

/-- The first layer of an edge's message. -/
theorem msg1_eq (hsrc : (𝒜).SrcInRange) (e : Fin 320000) (k : Fin 256) :
    val_main_v20 (F := Ideal) x0 x1 x2 x3 x4 (ix2 e k) = msg1 (𝒜) e k := by
  rw [val_main_v20_apply, val_main_v17_apply, val_main_v19_apply, val_main_v16_apply, val_main_cst_apply, val_main_v18_apply,
    val_main_cst_1_apply, pre1_eq x0 x1 x2 x3 x4 x5 x6 x7 x8 x9 x10 x11 x12 x13 x14 hsrc e k]
  exact select_leaky _

/-- The second affine map of an edge's message, before the rectifier. -/
theorem pre2_eq (hsrc : (𝒜).SrcInRange) (e : Fin 320000) (j : Fin 512) :
    val_main_v24 (F := Ideal) x0 x1 x2 x3 x4 x5 x6 (ix2 e j)
      = (∑ k : Fin 256, msg1 (𝒜) e k * (𝒜).W2 k j) + (𝒜).b2 j := by
  have hb : idx_main_v22 (idx_main_v23 (ix2 e j)) = ix1 j := funext fun a => Fin.ext (by match a with | ⟨0, _⟩ => rfl)
  rw [val_main_v24_apply, val_main_v21_apply, val_main_v23_apply, val_main_v22_apply, hb, Ideal.addf_def]
  refine congrArg₂ (· + ·) (Finset.sum_congr rfl fun k _ => ?_) rfl
  have hl : lidx_main_v21 (ix2 e j) k = ix2 e k := funext fun a => Fin.ext (by match a with | ⟨0, _⟩ => rfl | ⟨1, _⟩ => rfl)
  have hr : ridx_main_v21 (ix2 e j) k = ix2 k j := funext fun a => Fin.ext (by match a with | ⟨0, _⟩ => rfl | ⟨1, _⟩ => rfl)
  rw [hl, hr, msg1_eq x0 x1 x2 x3 x4 x5 x6 x7 x8 x9 x10 x11 x12 x13 x14 hsrc e k]
  rfl

/-- An edge's message. -/
theorem msg_eq (hsrc : (𝒜).SrcInRange) (e : Fin 320000) (j : Fin 512) :
    val_main_v29 (F := Ideal) x0 x1 x2 x3 x4 x5 x6 (ix2 e j) = msg (𝒜) e j := by
  rw [val_main_v29_apply, val_main_v26_apply, val_main_v28_apply, val_main_v25_apply, val_main_cst_2_apply, val_main_v27_apply,
    val_main_cst_3_apply, pre2_eq x0 x1 x2 x3 x4 x5 x6 x7 x8 x9 x10 x11 x12 x13 x14 hsrc e j]
  exact select_leaky _

/-- The destination word of an edge, as the scatter's index column holds it. -/
theorem dst_eq (e : Fin 320000) :
    val_main_v31 (F := Ideal) x1 (ix2 e (0 : Fin 1)) = x1 (ix2 (1 : Fin 2) e) := by
  have hidx : idx_main_v2 (idx_main_v3 (idx_main_v31 (ix2 e (0 : Fin 1)))) = ix2 (1 : Fin 2) e :=
    funext fun a => Fin.ext (by
      match a with
      | ⟨0, _⟩ => rfl
      | ⟨1, _⟩ => exact Nat.mod_eq_of_lt e.isLt)
  rw [val_main_v31_apply, val_main_v3_apply, val_main_v2_apply, hidx]

/-- A node's aggregate: the scatter-add into zeros sums the messages of the edges that end at the node. -/
theorem aggr_eq (hsrc : (𝒜).SrcInRange) (n : Fin 20000) (j : Fin 512) :
    val_main_v32 (F := Ideal) x0 x1 x2 x3 x4 x5 x6 (ix2 n j) = aggr (𝒜) n j := by
  unfold val_main_v32
  have hrec : scatter_S20000x512_S320000x1_S320000x512_1_0_0_1
      = rowScatterDims 20000 320000 512 scatter_S20000x512_S320000x1_S320000x512_1_0_0_1_wf := rfl
  rw [hrec, rowScatterAdd_apply, val_main_v30_apply, val_main_cst_4_apply, Ideal.ofBits_def, Ideal.ofBits_zero_f32, zero_add]
  unfold aggr
  simp only [dst_eq]
  exact Finset.sum_congr rfl fun e _ => msg_eq x0 x1 x2 x3 x4 x5 x6 x7 x8 x9 x10 x11 x12 x13 x14 hsrc e j

/-- The concatenated row of a node: its own features, then its aggregate. -/
theorem cat_eq (hsrc : (𝒜).SrcInRange) (n : Fin 20000) (k : Fin 640) :
    val_main_v33 (F := Ideal) x0 x1 x2 x3 x4 x5 x6 (ix2 n k) = cat (𝒜) n k := by
  unfold val_main_v33 cat
  by_cases h : k.val < 128
  · rw [dif_pos h]
    exact concatenate_pair_apply_left (1 : Fin 2) x0 (val_main_v32 (F := Ideal) x0 x1 x2 x3 x4 x5 x6)
      concatenates_S20000x128_S20000x512_S20000x640_d1 (ix2 n k) rfl (ix2 n (⟨k.val, h⟩ : Fin 128))
      (fun b => by match b with | ⟨0, _⟩ => rfl | ⟨1, _⟩ => rfl)
  · rw [dif_neg h]
    have hk : k.val - 128 < 512 := by have := k.isLt; omega
    refine (concatenate_pair_apply_right (1 : Fin 2) x0 (val_main_v32 (F := Ideal) x0 x1 x2 x3 x4 x5 x6)
      concatenates_S20000x128_S20000x512_S20000x640_d1 (ix2 n k) rfl rfl (ix2 n (⟨k.val - 128, hk⟩ : Fin 512))
      (fun b hb => by
        match b with
        | ⟨0, _⟩ => rfl
        | ⟨1, _⟩ => exact absurd rfl hb)
      (by show (k.val - 128) + 128 = k.val; omega)).trans ?_
    exact aggr_eq x0 x1 x2 x3 x4 x5 x6 x7 x8 x9 x10 x11 x12 x13 x14 hsrc n ⟨k.val - 128, hk⟩

/-- The third affine map, of a node's concatenated row, before the rectifier. -/
theorem pre3_eq (hsrc : (𝒜).SrcInRange) (n : Fin 20000) (j : Fin 1024) :
    val_main_v37 (F := Ideal) x0 x1 x2 x3 x4 x5 x6 x7 x8 (ix2 n j)
      = (∑ k : Fin 640, cat (𝒜) n k * (𝒜).W3 k j) + (𝒜).b3 j := by
  have hb : idx_main_v35 (idx_main_v36 (ix2 n j)) = ix1 j := funext fun a => Fin.ext (by match a with | ⟨0, _⟩ => rfl)
  rw [val_main_v37_apply, val_main_v34_apply, val_main_v36_apply, val_main_v35_apply, hb, Ideal.addf_def]
  refine congrArg₂ (· + ·) (Finset.sum_congr rfl fun k _ => ?_) rfl
  have hl : lidx_main_v34 (ix2 n j) k = ix2 n k := funext fun a => Fin.ext (by match a with | ⟨0, _⟩ => rfl | ⟨1, _⟩ => rfl)
  have hr : ridx_main_v34 (ix2 n j) k = ix2 k j := funext fun a => Fin.ext (by match a with | ⟨0, _⟩ => rfl | ⟨1, _⟩ => rfl)
  rw [hl, hr, cat_eq x0 x1 x2 x3 x4 x5 x6 x7 x8 x9 x10 x11 x12 x13 x14 hsrc n k]
  rfl

/-- The hidden layer of the node update. -/
theorem hid_eq (hsrc : (𝒜).SrcInRange) (n : Fin 20000) (j : Fin 1024) :
    val_main_v42 (F := Ideal) x0 x1 x2 x3 x4 x5 x6 x7 x8 (ix2 n j) = hidR (𝒜) n j := by
  rw [val_main_v42_apply, val_main_v39_apply, val_main_v41_apply, val_main_v38_apply, val_main_cst_5_apply, val_main_v40_apply,
    val_main_cst_6_apply, pre3_eq x0 x1 x2 x3 x4 x5 x6 x7 x8 x9 x10 x11 x12 x13 x14 hsrc n j]
  exact select_leaky _

/-- The fourth affine map of a node's hidden layer. -/
theorem pre4_eq (hsrc : (𝒜).SrcInRange) (n : Fin 20000) (c : Fin 128) :
    val_main_v46 (F := Ideal) x0 x1 x2 x3 x4 x5 x6 x7 x8 x9 x10 (ix2 n c)
      = (∑ k : Fin 1024, hidR (𝒜) n k * (𝒜).W4 k c) + (𝒜).b4 c := by
  have hb : idx_main_v44 (idx_main_v45 (ix2 n c)) = ix1 c := funext fun a => Fin.ext (by match a with | ⟨0, _⟩ => rfl)
  rw [val_main_v46_apply, val_main_v43_apply, val_main_v45_apply, val_main_v44_apply, hb, Ideal.addf_def]
  refine congrArg₂ (· + ·) (Finset.sum_congr rfl fun k _ => ?_) rfl
  have hl : lidx_main_v43 (ix2 n c) k = ix2 n k := funext fun a => Fin.ext (by match a with | ⟨0, _⟩ => rfl | ⟨1, _⟩ => rfl)
  have hr : ridx_main_v43 (ix2 n c) k = ix2 k c := funext fun a => Fin.ext (by match a with | ⟨0, _⟩ => rfl | ⟨1, _⟩ => rfl)
  rw [hl, hr, hid_eq x0 x1 x2 x3 x4 x5 x6 x7 x8 x9 x10 x11 x12 x13 x14 hsrc n k]
  rfl

/-- The guarded standard deviation, broadcast along the rows. -/
theorem sd_eq (n : Fin 20000) (c : Fin 128) :
    val_main_v54 (F := Ideal) x14 (ix2 n c) = sd (𝒜) c := by
  have hb : idx_main_v53 (idx_main_v54 (ix2 n c)) = ix1 c := funext fun a => Fin.ext (by match a with | ⟨0, _⟩ => rfl)
  rw [val_main_v54_apply, val_main_v53_apply, hb, val_main_v52_apply, val_main_v51_apply, val_main_v50_apply, val_main_cst_7_apply,
    Ideal.hostUnary_sqrt_def, Ideal.addf_def, Ideal.ofBits_def]
  rfl

/-- The result at an entry. -/
theorem out_eq (hsrc : (𝒜).SrcInRange) (n : Fin 20000) (c : Fin 128) :
    val_main_v64 (F := Ideal) x0 x1 x2 x3 x4 x5 x6 x7 x8 x9 x10 x11 x12 x13 x14 (ix2 n c) = outR (𝒜) n c := by
  have hmean : idx_main_v47 (idx_main_v48 (ix2 n c)) = ix1 c := funext fun a => Fin.ext (by match a with | ⟨0, _⟩ => rfl)
  have hgamma : idx_main_v56 (idx_main_v57 (ix2 n c)) = ix1 c := funext fun a => Fin.ext (by match a with | ⟨0, _⟩ => rfl)
  have hbeta : idx_main_v59 (idx_main_v60 (ix2 n c)) = ix1 c := funext fun a => Fin.ext (by match a with | ⟨0, _⟩ => rfl)
  rw [val_main_v64_apply, val_main_v63_apply, val_main_cst_8_apply, val_main_v62_apply, val_main_v61_apply, val_main_v60_apply,
    val_main_v59_apply, hbeta, val_main_v58_apply, val_main_v57_apply, val_main_v56_apply, hgamma, val_main_v55_apply,
    sd_eq x0 x1 x2 x3 x4 x5 x6 x7 x8 x9 x10 x11 x12 x13 x14 n c, val_main_v49_apply, val_main_v48_apply, val_main_v47_apply, hmean,
    pre4_eq x0 x1 x2 x3 x4 x5 x6 x7 x8 x9 x10 x11 x12 x13 x14 hsrc n c,
    Ideal.hostDivf_def, Ideal.hostDivf_def, Ideal.addf_def, Ideal.addf_def, Ideal.mulf_def, Ideal.subf_def, Ideal.ofBits_def]
  rfl

end Stages

/-- With every edge's source a node number, the program's last stage is `outR` of the inputs at every entry. -/
theorem val_eq (x0 : (⟨S20000x128, .f32⟩ : BufTy).Contents (Elt Ideal)) (x1 : (⟨S2x320000, .i32⟩ : BufTy).Contents (Elt Ideal))
    (x2 : (⟨S320000x128, .f32⟩ : BufTy).Contents (Elt Ideal)) (x3 : (⟨S128x256, .f32⟩ : BufTy).Contents (Elt Ideal))
    (x4 : (⟨S256, .f32⟩ : BufTy).Contents (Elt Ideal)) (x5 : (⟨S256x512, .f32⟩ : BufTy).Contents (Elt Ideal))
    (x6 : (⟨S512, .f32⟩ : BufTy).Contents (Elt Ideal)) (x7 : (⟨S640x1024, .f32⟩ : BufTy).Contents (Elt Ideal))
    (x8 : (⟨S1024, .f32⟩ : BufTy).Contents (Elt Ideal)) (x9 : (⟨S1024x128, .f32⟩ : BufTy).Contents (Elt Ideal))
    (x10 x11 x12 x13 x14 : (⟨S128, .f32⟩ : BufTy).Contents (Elt Ideal))
    (hsrc : (argsOf x0 x1 x2 x3 x4 x5 x6 x7 x8 x9 x10 x11 x12 x13 x14).SrcInRange) :
    val_main_v64 (F := Ideal) x0 x1 x2 x3 x4 x5 x6 x7 x8 x9 x10 x11 x12 x13 x14
      = fun i => outR (argsOf x0 x1 x2 x3 x4 x5 x6 x7 x8 x9 x10 x11 x12 x13 x14) (i 0) (i 1) := by
  funext i
  obtain ⟨n, c, rfl⟩ : ∃ (n : Fin 20000) (c : Fin 128), i = ix2 n c := ⟨i 0, i 1, eq_ix2 i⟩
  exact out_eq x0 x1 x2 x3 x4 x5 x6 x7 x8 x9 x10 x11 x12 x13 x14 hsrc n c

end Cert.RefSide

end
-- ==== Proof.KBody.lean ====
/-
  The two kernel bodies, entry by entry: what a block of edges, and a block of nodes, computes from its input blocks.
-/
import proofs.«411389_j20023137533996_3_alg».proof.Proof.Gen.KernelIdeal.Skeleton
import proofs.«411389_j20023137533996_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-! ## The rectifier, a bias row and a product of two matrices, each read at one entry -/

/-- The rectifier as both bodies spell it — compare the value with a zero splat, multiply it by a slope splat, select
    between the two — is `leaky` of the entry. -/
theorem leaky_select_apply {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i = leaky (y i) := by
  rw [select_apply, cmpf_apply, mulf_apply, broadcast_apply, broadcast_apply]
  show Scalar.select (Ideal.cmp .oge (y i) (Ideal.ofBits .f32 0x00000000#32)) (y i)
      (Ideal.ofBits .f32 0x3C23D70A#32 * y i) = _
  rw [Ideal.ofBits_zero_f32]
  unfold leaky Cert.Spec.slope Scalar.select Ideal.cmp
  by_cases h : (0 : EReal) ≤ y i
  · simp [h]
  · simp [h]

/-- A bias of length `b`, viewed as one row `[1, b]` and repeated down `a` rows, reads at `(p, c)` its entry `c`. -/
theorem bias_row_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) := by
  rw [broadcastTo_1b_ab_apply, shapeCast_a_1a_apply]

/-- A product of an `[m, n]` matrix and an `[n, l]` matrix into the zero matrix, for dimension numbers `D` that contract
    the left operand's columns against the right operand's rows (the four equations say which coordinate of the result
    or of the contraction each operand axis reads): entry `(p, q)` is the sum over `k` of `lhs (p, k) * rhs (k, q)`. -/
theorem matmul_ix2_apply {m n l : ℕ} {φ₁ φ₂ : FTy} (D : DotDims ⟨2, ![m, n]⟩ ⟨2, ![n, l]⟩ ⟨2, ![m, l]⟩)
    (hr : D.contr.rank = 1) (hs : D.contr.size ⟨0, by omega⟩ = n)
    (hl0 : ∀ (i : (⟨2, ![m, l]⟩ : Shape).Idx) (c : D.contr.Idx), (D.lhsIdx i c 0).val = (i 0).val)
    (hl1 : ∀ (i : (⟨2, ![m, l]⟩ : Shape).Idx) (c : D.contr.Idx), (D.lhsIdx i c 1).val = (c ⟨0, by omega⟩).val)
    (hr0 : ∀ (i : (⟨2, ![m, l]⟩ : Shape).Idx) (c : D.contr.Idx), (D.rhsIdx i c 0).val = (c ⟨0, by omega⟩).val)
    (hr1 : ∀ (i : (⟨2, ![m, l]⟩ : Shape).Idx) (c : D.contr.Idx), (D.rhsIdx i c 1).val = (i 1).val)
    (lhs : FVec Ideal ⟨2, ![m, n]⟩ φ₁) (rhs : FVec Ideal ⟨2, ![n, l]⟩ φ₂) (p : Fin m) (q : Fin l) :
    matmul D none lhs rhs (constant (F := Ideal) ⟨2, ![m, l]⟩ .f32 0x00000000#32) (ix2 p q)
      = ∑ k : Fin n, lhs (ix2 p k) * rhs (ix2 k q) := by
  refine (Ideal.matmul_constant_zero_apply D none lhs rhs (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun a => Fin.ext (by
    match a with
    | ⟨0, _⟩ => exact hl0 _ _
    | ⟨1, _⟩ => exact (hl1 _ _).trans hk)
  have er : D.rhsIdx (ix2 p q) ((contrEquiv1 D n hr hs).symm k) = ix2 k q := funext fun a => Fin.ext (by
    match a with
    | ⟨0, _⟩ => exact (hr0 _ _).trans hk
    | ⟨1, _⟩ => exact hr1 _ _)
  rw [el, er]

/-! ## The five products of the two bodies

For each product's dimension numbers, which coordinate each operand axis reads (four equations), then the product read
at an entry. -/

theorem lhs_e1_0 (i : S4000x256.Idx) (c : dot_S4000x128_S128x256_S4000x256_1_0_0_1_n_n.contr.Idx) :
    (dot_S4000x128_S128x256_S4000x256_1_0_0_1_n_n.lhsIdx i c 0).val = (i 0).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl
theorem lhs_e1_1 (i : S4000x256.Idx) (c : dot_S4000x128_S128x256_S4000x256_1_0_0_1_n_n.contr.Idx) :
    (dot_S4000x128_S128x256_S4000x256_1_0_0_1_n_n.lhsIdx i c 1).val = (c ⟨0, by decide⟩).val :=
  dot_S4000x128_S128x256_S4000x256_1_0_0_1_n_n.lhsIdx_val_of_single rfl i c
theorem rhs_e1_0 (i : S4000x256.Idx) (c : dot_S4000x128_S128x256_S4000x256_1_0_0_1_n_n.contr.Idx) :
    (dot_S4000x128_S128x256_S4000x256_1_0_0_1_n_n.rhsIdx i c 0).val = (c ⟨0, by decide⟩).val :=
  dot_S4000x128_S128x256_S4000x256_1_0_0_1_n_n.rhsIdx_val_of_single rfl i c
theorem rhs_e1_1 (i : S4000x256.Idx) (c : dot_S4000x128_S128x256_S4000x256_1_0_0_1_n_n.contr.Idx) :
    (dot_S4000x128_S128x256_S4000x256_1_0_0_1_n_n.rhsIdx i c 1).val = (i 1).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl
/-- The edges' first product, `[4000, 128]` by `[128, 256]`, into the zero matrix, read at `(p, q)`. -/
theorem matmul_e1_apply {φ₁ φ₂ : FTy} (lhs : FVec Ideal S4000x128 φ₁) (rhs : FVec Ideal S128x256 φ₂) (p : Fin 4000) (q : Fin 256) :
    matmul dot_S4000x128_S128x256_S4000x256_1_0_0_1_n_n none lhs rhs (constant (F := Ideal) S4000x256 .f32 0x00000000#32) (ix2 p q)
      = ∑ k : Fin 128, lhs (ix2 p k) * rhs (ix2 k q) :=
  matmul_ix2_apply dot_S4000x128_S128x256_S4000x256_1_0_0_1_n_n rfl rfl lhs_e1_0 lhs_e1_1 rhs_e1_0 rhs_e1_1 lhs rhs p q

theorem lhs_e2_0 (i : S4000x512.Idx) (c : dot_S4000x256_S256x512_S4000x512_1_0_0_1_n_n.contr.Idx) :
    (dot_S4000x256_S256x512_S4000x512_1_0_0_1_n_n.lhsIdx i c 0).val = (i 0).val := by
  unfold DotDims.lhsIdx
  rw [dif_neg (show ¬(0 : Fin S4000x256.rank) ∈ dot_S4000x256_S256x512_S4000x512_1_0_0_1_n_n.lhsBatch by decide),
    dif_pos (show (0 : Fin S4000x256.rank) ∈ dot_S4000x256_S256x512_S4000x512_1_0_0_1_n_n.lhsNonContracting by decide)]
  rfl
theorem lhs_e2_1 (i : S4000x512.Idx) (c : dot_S4000x256_S256x512_S4000x512_1_0_0_1_n_n.contr.Idx) :
    (dot_S4000x256_S256x512_S4000x512_1_0_0_1_n_n.lhsIdx i c 1).val = (c ⟨0, by decide⟩).val :=
  dot_S4000x256_S256x512_S4000x512_1_0_0_1_n_n.lhsIdx_val_of_single rfl i c
theorem rhs_e2_0 (i : S4000x512.Idx) (c : dot_S4000x256_S256x512_S4000x512_1_0_0_1_n_n.contr.Idx) :
    (dot_S4000x256_S256x512_S4000x512_1_0_0_1_n_n.rhsIdx i c 0).val = (c ⟨0, by decide⟩).val :=
  dot_S4000x256_S256x512_S4000x512_1_0_0_1_n_n.rhsIdx_val_of_single rfl i c
theorem rhs_e2_1 (i : S4000x512.Idx) (c : dot_S4000x256_S256x512_S4000x512_1_0_0_1_n_n.contr.Idx) :
    (dot_S4000x256_S256x512_S4000x512_1_0_0_1_n_n.rhsIdx i c 1).val = (i 1).val := by
  unfold DotDims.rhsIdx
  rw [dif_neg (show ¬(1 : Fin S256x512.rank) ∈ dot_S4000x256_S256x512_S4000x512_1_0_0_1_n_n.rhsBatch by decide),
    dif_pos (show (1 : Fin S256x512.rank) ∈ dot_S4000x256_S256x512_S4000x512_1_0_0_1_n_n.rhsNonContracting by decide)]
  rfl
/-- The edges' second product, `[4000, 256]` by `[256, 512]`, into the zero matrix, read at `(p, q)`. -/
theorem matmul_e2_apply {φ₁ φ₂ : FTy} (lhs : FVec Ideal S4000x256 φ₁) (rhs : FVec Ideal S256x512 φ₂) (p : Fin 4000) (q : Fin 512) :
    matmul dot_S4000x256_S256x512_S4000x512_1_0_0_1_n_n none lhs rhs (constant (F := Ideal) S4000x512 .f32 0x00000000#32) (ix2 p q)
      = ∑ k : Fin 256, lhs (ix2 p k) * rhs (ix2 k q) :=
  matmul_ix2_apply dot_S4000x256_S256x512_S4000x512_1_0_0_1_n_n rfl rfl lhs_e2_0 lhs_e2_1 rhs_e2_0 rhs_e2_1 lhs rhs p q

theorem lhs_n1_0 (i : S2000x1024.Idx) (c : dot_S2000x128_S128x1024_S2000x1024_1_0_0_1_n_n.contr.Idx) :
    (dot_S2000x128_S128x1024_S2000x1024_1_0_0_1_n_n.lhsIdx i c 0).val = (i 0).val := by
  unfold DotDims.lhsIdx
  rw [dif_neg (show ¬(0 : Fin S2000x128.rank) ∈ dot_S2000x128_S128x1024_S2000x1024_1_0_0_1_n_n.lhsBatch by decide),
    dif_pos (show (0 : Fin S2000x128.rank) ∈ dot_S2000x128_S128x1024_S2000x1024_1_0_0_1_n_n.lhsNonContracting by decide)]
  rfl
theorem lhs_n1_1 (i : S2000x1024.Idx) (c : dot_S2000x128_S128x1024_S2000x1024_1_0_0_1_n_n.contr.Idx) :
    (dot_S2000x128_S128x1024_S2000x1024_1_0_0_1_n_n.lhsIdx i c 1).val = (c ⟨0, by decide⟩).val :=
  dot_S2000x128_S128x1024_S2000x1024_1_0_0_1_n_n.lhsIdx_val_of_single rfl i c
theorem rhs_n1_0 (i : S2000x1024.Idx) (c : dot_S2000x128_S128x1024_S2000x1024_1_0_0_1_n_n.contr.Idx) :
    (dot_S2000x128_S128x1024_S2000x1024_1_0_0_1_n_n.rhsIdx i c 0).val = (c ⟨0, by decide⟩).val :=
  dot_S2000x128_S128x1024_S2000x1024_1_0_0_1_n_n.rhsIdx_val_of_single rfl i c
theorem rhs_n1_1 (i : S2000x1024.Idx) (c : dot_S2000x128_S128x1024_S2000x1024_1_0_0_1_n_n.contr.Idx) :
    (dot_S2000x128_S128x1024_S2000x1024_1_0_0_1_n_n.rhsIdx i c 1).val = (i 1).val := by
  unfold DotDims.rhsIdx
  rw [dif_neg (show ¬(1 : Fin S128x1024.rank) ∈ dot_S2000x128_S128x1024_S2000x1024_1_0_0_1_n_n.rhsBatch by decide),
    dif_pos (show (1 : Fin S128x1024.rank) ∈ dot_S2000x128_S128x1024_S2000x1024_1_0_0_1_n_n.rhsNonContracting by decide)]
  rfl
/-- The nodes' product of their own features, `[2000, 128]` by `[128, 1024]`, into the zero matrix, read at `(p, q)`. -/
theorem matmul_n1_apply {φ₁ φ₂ : FTy} (lhs : FVec Ideal S2000x128 φ₁) (rhs : FVec Ideal S128x1024 φ₂) (p : Fin 2000) (q : Fin 1024) :
    matmul dot_S2000x128_S128x1024_S2000x1024_1_0_0_1_n_n none lhs rhs (constant (F := Ideal) S2000x1024 .f32 0x00000000#32) (ix2 p q)
      = ∑ k : Fin 128, lhs (ix2 p k) * rhs (ix2 k q) :=
  matmul_ix2_apply dot_S2000x128_S128x1024_S2000x1024_1_0_0_1_n_n rfl rfl lhs_n1_0 lhs_n1_1 rhs_n1_0 rhs_n1_1 lhs rhs p q

theorem lhs_n2_0 (i : S2000x1024.Idx) (c : dot_S2000x512_S512x1024_S2000x1024_1_0_0_1_n_n.contr.Idx) :
    (dot_S2000x512_S512x1024_S2000x1024_1_0_0_1_n_n.lhsIdx i c 0).val = (i 0).val := by
  unfold DotDims.lhsIdx
  rw [dif_neg (show ¬(0 : Fin S2000x512.rank) ∈ dot_S2000x512_S512x1024_S2000x1024_1_0_0_1_n_n.lhsBatch by decide),
    dif_pos (show (0 : Fin S2000x512.rank) ∈ dot_S2000x512_S512x1024_S2000x1024_1_0_0_1_n_n.lhsNonContracting by decide)]
  rfl
theorem lhs_n2_1 (i : S2000x1024.Idx) (c : dot_S2000x512_S512x1024_S2000x1024_1_0_0_1_n_n.contr.Idx) :
    (dot_S2000x512_S512x1024_S2000x1024_1_0_0_1_n_n.lhsIdx i c 1).val = (c ⟨0, by decide⟩).val :=
  dot_S2000x512_S512x1024_S2000x1024_1_0_0_1_n_n.lhsIdx_val_of_single rfl i c
theorem rhs_n2_0 (i : S2000x1024.Idx) (c : dot_S2000x512_S512x1024_S2000x1024_1_0_0_1_n_n.contr.Idx) :
    (dot_S2000x512_S512x1024_S2000x1024_1_0_0_1_n_n.rhsIdx i c 0).val = (c ⟨0, by decide⟩).val :=
  dot_S2000x512_S512x1024_S2000x1024_1_0_0_1_n_n.rhsIdx_val_of_single rfl i c
theorem rhs_n2_1 (i : S2000x1024.Idx) (c : dot_S2000x512_S512x1024_S2000x1024_1_0_0_1_n_n.contr.Idx) :
    (dot_S2000x512_S512x1024_S2000x1024_1_0_0_1_n_n.rhsIdx i c 1).val = (i 1).val := by
  unfold DotDims.rhsIdx
  rw [dif_neg (show ¬(1 : Fin S512x1024.rank) ∈ dot_S2000x512_S512x1024_S2000x1024_1_0_0_1_n_n.rhsBatch by decide),
    dif_pos (show (1 : Fin S512x1024.rank) ∈ dot_S2000x512_S512x1024_S2000x1024_1_0_0_1_n_n.rhsNonContracting by decide)]
  rfl
/-- The nodes' product of their aggregates, `[2000, 512]` by `[512, 1024]`, into the zero matrix, read at `(p, q)`. -/
theorem matmul_n2_apply {φ₁ φ₂ : FTy} (lhs : FVec Ideal S2000x512 φ₁) (rhs : FVec Ideal S512x1024 φ₂) (p : Fin 2000) (q : Fin 1024) :
    matmul dot_S2000x512_S512x1024_S2000x1024_1_0_0_1_n_n none lhs rhs (constant (F := Ideal) S2000x1024 .f32 0x00000000#32) (ix2 p q)
      = ∑ k : Fin 512, lhs (ix2 p k) * rhs (ix2 k q) :=
  matmul_ix2_apply dot_S2000x512_S512x1024_S2000x1024_1_0_0_1_n_n rfl rfl lhs_n2_0 lhs_n2_1 rhs_n2_0 rhs_n2_1 lhs rhs p q

theorem lhs_n3_0 (i : S2000x128.Idx) (c : dot_S2000x1024_S1024x128_S2000x128_1_0_0_1_n_n.contr.Idx) :
    (dot_S2000x1024_S1024x128_S2000x128_1_0_0_1_n_n.lhsIdx i c 0).val = (i 0).val := by
  unfold DotDims.lhsIdx
  rw [dif_neg (show ¬(0 : Fin S2000x1024.rank) ∈ dot_S2000x1024_S1024x128_S2000x128_1_0_0_1_n_n.lhsBatch by decide),
    dif_pos (show (0 : Fin S2000x1024.rank) ∈ dot_S2000x1024_S1024x128_S2000x128_1_0_0_1_n_n.lhsNonContracting by decide)]
  rfl
theorem lhs_n3_1 (i : S2000x128.Idx) (c : dot_S2000x1024_S1024x128_S2000x128_1_0_0_1_n_n.contr.Idx) :
    (dot_S2000x1024_S1024x128_S2000x128_1_0_0_1_n_n.lhsIdx i c 1).val = (c ⟨0, by decide⟩).val :=
  dot_S2000x1024_S1024x128_S2000x128_1_0_0_1_n_n.lhsIdx_val_of_single rfl i c
theorem rhs_n3_0 (i : S2000x128.Idx) (c : dot_S2000x1024_S1024x128_S2000x128_1_0_0_1_n_n.contr.Idx) :
    (dot_S2000x1024_S1024x128_S2000x128_1_0_0_1_n_n.rhsIdx i c 0).val = (c ⟨0, by decide⟩).val :=
  dot_S2000x1024_S1024x128_S2000x128_1_0_0_1_n_n.rhsIdx_val_of_single rfl i c
theorem rhs_n3_1 (i : S2000x128.Idx) (c : dot_S2000x1024_S1024x128_S2000x128_1_0_0_1_n_n.contr.Idx) :
    (dot_S2000x1024_S1024x128_S2000x128_1_0_0_1_n_n.rhsIdx i c 1).val = (i 1).val := by
  unfold DotDims.rhsIdx
  rw [dif_neg (show ¬(1 : Fin S1024x128.rank) ∈ dot_S2000x1024_S1024x128_S2000x128_1_0_0_1_n_n.rhsBatch by decide),
    dif_pos (show (1 : Fin S1024x128.rank) ∈ dot_S2000x1024_S1024x128_S2000x128_1_0_0_1_n_n.rhsNonContracting by decide)]
  rfl
/-- The nodes' last product, `[2000, 1024]` by `[1024, 128]`, into the zero matrix, read at `(p, q)`. -/
theorem matmul_n3_apply {φ₁ φ₂ : FTy} (lhs : FVec Ideal S2000x1024 φ₁) (rhs : FVec Ideal S1024x128 φ₂) (p : Fin 2000) (q : Fin 128) :
    matmul dot_S2000x1024_S1024x128_S2000x128_1_0_0_1_n_n none lhs rhs (constant (F := Ideal) S2000x128 .f32 0x00000000#32) (ix2 p q)
      = ∑ k : Fin 1024, lhs (ix2 p k) * rhs (ix2 k q) :=
  matmul_ix2_apply dot_S2000x1024_S1024x128_S2000x128_1_0_0_1_n_n rfl rfl lhs_n3_0 lhs_n3_1 rhs_n3_0 rhs_n3_1 lhs rhs p q

/-! ## The two bodies -/

/-- The word the node body multiplies by is one half. -/
theorem half_word : Scalar.ofBits (F := Ideal) .f32 0x3F000000#32 = half := rfl

/-- A block of 4000 edges: row p of the block, column q of the message, from the block's gathered rows `xj`, its edge
    attributes `ea` and the two affine maps. -/
theorem pay0_apply (xj ea : Vec Ideal S4000x128 .f32) (w1 : Vec Ideal S128x256 .bf16) (b1 : Vec Ideal S256 .f32)
    (w2 : Vec Ideal S256x512 .bf16) (b2 : Vec Ideal S512 .f32) (p : Fin 4000) (q : Fin 512) :
    k0_pay1 (F := Ideal) xj ea w1 b1 w2 b2 (ix2 p q)
      = leaky ((∑ k : Fin 256, leaky ((∑ d : Fin 128, (xj (ix2 p d) * ea (ix2 p d)) * w1 (ix2 d k)) + b1 (ix1 k)) * w2 (ix2 k q))
          + b2 (ix1 q)) := by
  unfold k0_pay1
  simp only [truncf_apply, leaky_select_apply, addf_apply, mulf_apply, shapeCast_self, matmul_e1_apply, matmul_e2_apply,
    bias_row_apply]

/-- A block of 2000 nodes: row p of the block, column q of the result, from the block's features `x0`, its aggregates
    `ag`, the third matrix in two parts, and the fourth map with the normalisation folded in (`w4`, `b4`). -/
theorem pay1_apply (x0 : Vec Ideal S2000x128 .f32) (ag : Vec Ideal S2000x512 .f32) (w3a : Vec Ideal S128x1024 .bf16)
    (w3b : Vec Ideal S512x1024 .bf16) (b3 : Vec Ideal S1024 .f32) (w4 : Vec Ideal S1024x128 .bf16) (b4 : Vec Ideal S128 .f32)
    (p : Fin 2000) (q : Fin 128) :
    k1_pay1 (F := Ideal) x0 ag w3a w3b b3 w4 b4 (ix2 p q)
      = (((∑ k : Fin 1024, leaky (((∑ d : Fin 128, x0 (ix2 p d) * w3a (ix2 d k)) + (∑ d : Fin 512, ag (ix2 p d) * w3b (ix2 d k)))
            + b3 (ix1 k)) * w4 (ix2 k q)) + b4 (ix1 q)) + x0 (ix2 p q)) * half := by
  unfold k1_pay1
  simp only [truncf_apply, leaky_select_apply, addf_apply, mulf_apply, shapeCast_self, matmul_n1_apply, matmul_n2_apply,
    matmul_n3_apply, bias_row_apply, broadcast_apply, half_word]

end Cert.KernelIdeal.Body

end
-- ==== Proof.KRegion0.lean ====
/-
  The first pipeline: each block of 4000 edges computes its messages; after all 80 blocks the pipeline's output array
  holds every edge's message.
-/
import proofs.«411389_j20023137533996_3_alg».proof.Proof.Gen.KernelIdeal.Frame
import proofs.«411389_j20023137533996_3_alg».proof.Proof.KArgs
import proofs.«411389_j20023137533996_3_alg».proof.Proof.KBody
import proofs.«411389_j20023137533996_3_alg».proof.Proof.LibRows
import Idealize.ShloMosaic.Lib.StableHlo.Run

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-! ## The blocks of the seven windows -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 80 points. -/
theorem point_lt (t : Fin cfg0.N) : t.val < 80 := by
  have h : t.val < grid0.N := t.isLt
  have hN : grid0.N = 80 := N_0
  omega

/-- The index maps over the grid: the two edge inputs and the output move with the point along the rows; the four
    weight inputs stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The six input arrays as the pipeline finds them, each at its literal type. -/
abbrev inX (c : Dev nD) : S320000x128.Idx → EReal := V c main_v4
abbrev inEa (c : Dev nD) : S320000x128.Idx → EReal := V c main_arg2
abbrev inW1 (c : Dev nD) : S128x256.Idx → EReal := V c main_v5
abbrev inB1 (c : Dev nD) : S256.Idx → EReal := V c main_arg4
abbrev inW2 (c : Dev nD) : S256x512.Idx → EReal := V c main_v6
abbrev inB2 (c : Dev nD) : S512.Idx → EReal := V c main_arg6

/-- Row `p` of block `t` is edge `4000 t + p`. -/
def edge (t : Fin cfg0.N) (p : Fin 4000) : Fin 320000 := ⟨4000 * t.val + p.val, by have := point_lt t; omega⟩

set_option maxHeartbeats 400000 in
/-- The gathered rows' block at point `t` is rows `4000 t … 4000 t + 3999` of the gathered array. -/
theorem blk0_apply (c : Dev nD) (t : Fin cfg0.N) (p : Fin 4000) (d : Fin 128) :
    (iblk0 V c 0 t : Vec Ideal S4000x128 .f32) (ix2 p d) = inX V c (ix2 (edge t p) d) := by
  obtain ⟨e0, e1, -⟩ := idx_facts t
  unfold iblk0
  rw [View.read_apply]
  show V c main_v4 _ = V c main_v4 _
  congr 1
  funext a
  apply Fin.ext
  match a with
  | ⟨0, _⟩ => show win0_0.index t (0 : Fin 2) * 4000 + 1 * p.val = 4000 * t.val + p.val; omega
  | ⟨1, _⟩ => show win0_0.index t (1 : Fin 2) * 128 + 1 * d.val = d.val; omega

set_option maxHeartbeats 400000 in
/-- The edge attributes' block at point `t` is the same rows of the attribute array. -/
theorem blk1_apply (c : Dev nD) (t : Fin cfg0.N) (p : Fin 4000) (d : Fin 128) :
    (iblk0 V c 1 t : Vec Ideal S4000x128 .f32) (ix2 p d) = inEa V c (ix2 (edge t p) d) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 4000 + 1 * p.val = 4000 * t.val + p.val; omega
  | ⟨1, _⟩ => show win0_1.index t (1 : Fin 2) * 128 + 1 * d.val = d.val; omega

set_option maxHeartbeats 400000 in
/-- The first weight matrix is one block, the whole array. -/
theorem blk2_apply (c : Dev nD) (t : Fin cfg0.N) (d : Fin 128) (k : Fin 256) :
    (iblk0 V c 2 t : Vec Ideal S128x256 .bf16) (ix2 d k) = inW1 V c (ix2 d k) := by
  obtain ⟨-, -, -, -, e0, e1, -⟩ := idx_facts t
  unfold iblk0
  rw [View.read_apply]
  show V c main_v5 _ = V c main_v5 _
  congr 1
  funext a
  apply Fin.ext
  match a with
  | ⟨0, _⟩ => show win0_2.index t (0 : Fin 2) * 128 + 1 * d.val = d.val; omega
  | ⟨1, _⟩ => show win0_2.index t (1 : Fin 2) * 256 + 1 * k.val = k.val; omega

set_option maxHeartbeats 400000 in
/-- The first bias is one block, the whole array. -/
theorem blk3_apply (c : Dev nD) (t : Fin cfg0.N) (k : Fin 256) :
    (iblk0 V c 3 t : Vec Ideal S256 .f32) (ix1 k) = inB1 V c (ix1 k) := by
  obtain ⟨-, -, -, -, -, -, e0, -⟩ := idx_facts t
  unfold iblk0
  rw [View.read_apply]
  show V c main_arg4 _ = V c main_arg4 _
  congr 1
  funext a
  apply Fin.ext
  match a with
  | ⟨0, _⟩ => show win0_3.index t (0 : Fin 1) * 256 + 1 * k.val = k.val; omega

set_option maxHeartbeats 400000 in
/-- The second weight matrix is one block, the whole array. -/
theorem blk4_apply (c : Dev nD) (t : Fin cfg0.N) (k : Fin 256) (j : Fin 512) :
    (iblk0 V c 4 t : Vec Ideal S256x512 .bf16) (ix2 k j) = inW2 V c (ix2 k j) := by
  obtain ⟨-, -, -, -, -, -, -, e0, e1, -⟩ := idx_facts t
  unfold iblk0
  rw [View.read_apply]
  show V c main_v6 _ = V c main_v6 _
  congr 1
  funext a
  apply Fin.ext
  match a with
  | ⟨0, _⟩ => show win0_4.index t (0 : Fin 2) * 256 + 1 * k.val = k.val; omega
  | ⟨1, _⟩ => show win0_4.index t (1 : Fin 2) * 512 + 1 * j.val = j.val; omega

set_option maxHeartbeats 400000 in
/-- The second bias is one block, the whole array. -/
theorem blk5_apply (c : Dev nD) (t : Fin cfg0.N) (j : Fin 512) :
    (iblk0 V c 5 t : Vec Ideal S512 .f32) (ix1 j) = inB2 V c (ix1 j) := by
  obtain ⟨-, -, -, -, -, -, -, -, -, e0, -⟩ := idx_facts t
  unfold iblk0
  rw [View.read_apply]
  show V c main_arg6 _ = V c main_arg6 _
  congr 1
  funext a
  apply Fin.ext
  match a with
  | ⟨0, _⟩ => show win0_5.index t (0 : Fin 1) * 512 + 1 * j.val = j.val; omega

/-- An edge's message as the pipeline computes it from what its six input arrays hold when it starts. -/
def msgOf (c : Dev nD) (e : Fin 320000) (j : Fin 512) : EReal :=
  leaky ((∑ k : Fin 256, leaky ((∑ d : Fin 128,
      (inX V c (ix2 e d) * inEa V c (ix2 e d)) * inW1 V c (ix2 d k)) + inB1 V c (ix1 k))
      * inW2 V c (ix2 k j)) + inB2 V c (ix1 j))

set_option maxHeartbeats 400000 in
/-- What the body leaves in the output's staging buffer at point `t`, entry `(p, q)`: the message of edge `4000 t + p`. -/
theorem out_apply (c : Dev nD) (t : Fin cfg0.N) (p : Fin 4000) (q : Fin 512) :
    out0_6 (F := Ideal) (iblk0 V c 0 t) (iblk0 V c 1 t) (iblk0 V c 2 t) (iblk0 V c 3 t) (iblk0 V c 4 t) (iblk0 V c 5 t) (ix2 p q)
      = msgOf V c (edge t p) q := by
  unfold out0_6
  rw [View.canon_unit_zero hz2]
  simp only [View.ld_unit_zero (S := S4000x128) hz2, View.ld_unit_zero (S := S128x256) hz2, View.ld_unit_zero (S := S256) hz1,
    View.ld_unit_zero (S := S256x512) hz2, View.ld_unit_zero (S := S512) hz1]
  refine (Cert.KernelIdeal.Body.pay0_apply (iblk0 V c 0 t) (iblk0 V c 1 t) (iblk0 V c 2 t) (iblk0 V c 3 t) (iblk0 V c 4 t) (iblk0 V c 5 t) p q).trans ?_
  unfold msgOf
  simp only [blk0_apply, blk1_apply, blk2_apply, blk3_apply, blk4_apply, blk5_apply]

end Blocks

/-! ## What the host operations before the pipeline leave in its input arrays -/

section Host

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from 1 of an array of 1s is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- The row numbers the take reads, as a column: a negative number moved up by the number of rows. -/
def takeCol (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 20000#32))) idx)

/-- Which of those row numbers are in range, per edge. -/
def takeMask (col : IVec S320000x1 32) : IVec S320000 1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- The take of the rows of `x` at the row numbers `idx`: the gathered rows where the number is in range, a NaN elsewhere. -/
def takeOf (x : FVec Ideal S20000x128 .f32) (idx : IVec S320000 32) : FVec Ideal S320000x128 .f32 :=
  select (broadcastInDim S320000x128 ![0] bcast_S320000_S320000x128_0 (takeMask (takeCol idx)))
    (Host.gather gather_S20000x128_S320000x1_S320000x128_1_0_n_n_0_1_1128 x (takeCol idx))
    (broadcastInDim S320000x128 ![] bcast_S_S320000x128 (constant (F := Ideal) S_ .f32 0x7FC00000#32))

attribute [local irreducible] Host.reduce Host.gather in
set_option maxHeartbeats 400000 in
/-- The twenty-three operations of the take leave `takeOf` of the node features and the source list in the gathered array. -/
theorem take_eq (W : Valuation τ sig (Elt Ideal)) :
    StableHlo.after (hostOps0_1 (F := Ideal)) W (Proc.devRef .tc main_v4)
      = takeOf (W (Proc.devRef .tc main_arg0)) (W (Proc.devRef .tc main_v1)) := by
  simp only [StableHlo.after_cons, StableHlo.after_nil]
  rfl

end Host

/-! ## Reading the pipeline's six input arrays back to the launch memory -/

section Read

/-- A row number that is not negative is read as it is. -/
theorem takeCol_apply (idx : IVec S320000 32) (e : Fin 320000) (z : Fin 1) (h : 0 ≤ (idx (ix1 e)).toInt) :
    takeCol idx (ix2 e z) = idx (ix1 e) := by
  unfold takeCol
  refine (broadcastInDim_apply _ _ _ (ix2 e z) (ix1 e) (fun a => match a with | ⟨0, _⟩ => rfl)).trans ?_
  rw [select_apply]
  have hc : cmpi .slt idx (broadcastInDim S320000 ![] bcast_S_S320000 (constantI S_ 32 0#32)) (ix1 e) = 0#1 := by
    refine eq_zero_of_ne_one fun h1 => ?_
    have h2 : (idx (ix1 e)).toInt < (0#32 : BitVec 32).toInt := IntOp.cmpi_slt.mp h1
    have h3 : (0#32 : BitVec 32).toInt = 0 := by decide
    omega
  rw [hc, select_zero]

/-- With every row number in range, every edge's mask bit is set. -/
theorem takeMask_apply (col : IVec S320000x1 32) (h : ∀ i, 0 ≤ (col i).toInt ∧ (col i).toInt ≤ 19999) (e : S320000.Idx) :
    takeMask col e = 1#1 := by
  unfold takeMask
  refine reduce_andi_of_all _ _ _ _ rfl (fun i => ?_) e
  show IntOp.andi (IntOp.cmpi .sge (col i) 0#32) (IntOp.cmpi .sle (col i) 19999#32) = 1#1
  have h0 : (0#32 : BitVec 32).toInt = 0 := by decide
  have h1 : (19999#32 : BitVec 32).toInt = 19999 := by decide
  have hi := h i
  exact IntOp.andi_eq_one.mpr ⟨IntOp.cmpi_sge.mpr (by omega), IntOp.cmpi_sle.mpr (by omega)⟩

/-- With every row number in range, the take reads at `(e, d)` the row that edge names, column `d`. -/
theorem takeOf_apply (x : FVec Ideal S20000x128 .f32) (idx : IVec S320000 32)
    (h : ∀ e : Fin 320000, 0 ≤ (idx (ix1 e)).toInt ∧ (idx (ix1 e)).toInt < 20000) (e : Fin 320000) (d : Fin 128)
    (r : Fin 20000) (hr : r.val = min (idx (ix1 e)).toInt.toNat 19999) :
    takeOf x idx (ix2 e d) = x (ix2 r d) := by
  unfold takeOf
  rw [select_apply]
  have hm : broadcastInDim S320000x128 ![0] bcast_S320000_S320000x128_0 (takeMask (takeCol idx)) (ix2 e d) = 1#1 := by
    refine (broadcastInDim_apply _ _ _ (ix2 e d) (ix1 e) (fun a => match a with | ⟨0, _⟩ => rfl)).trans ?_
    refine takeMask_apply _ (fun i => ?_) _
    have hi : takeCol idx i = idx (ix1 (i 0)) :=
      (congrArg (takeCol idx) (eq_ix2 i)).trans (takeCol_apply idx (i 0) (i 1) (h (i 0)).1)
    rw [hi]
    have := h (i 0)
    omega
  rw [hm, select_one]
  refine (rowGather_apply (N := 20000) (E := 320000) (C := 128) (by decide)
    gather_S20000x128_S320000x1_S320000x128_1_0_n_n_0_1_1128_wf x (takeCol idx) e d).trans ?_
  refine congrArg x (Shape.idx_ext₂ ?_ rfl)
  show min (takeCol idx (ix2 e (0 : Fin 1))).toInt.toNat (20000 - 1) = r.val
  rw [takeCol_apply idx e 0 (h e).1, hr]

/-- The source list after the first four host operations: row 0 of the edge list. -/
theorem src_eq (W : Valuation τ sig (Elt Ideal)) :
    StableHlo.after (hostOps0 (F := Ideal)) W (Proc.devRef .tc main_v1)
      = shapeCast S320000 (extractStridedSlice S1x320000 ![0, 0] (W (Proc.devRef .tc main_arg1)) slices_S2x320000_S1x320000_0_0)
          shapeCasts_S1x320000_S320000 := by
  simp only [StableHlo.after_cons, StableHlo.after_nil]
  rfl

attribute [local irreducible] Host.reduce Host.gather

/-! Arrays a stretch of host operations does not write keep their contents through it. -/

theorem keep2_v4 (W : Valuation τ sig (Elt Ideal)) :
    StableHlo.after (hostOps0_2 (F := Ideal)) W (Proc.devRef .tc main_v4) = W (Proc.devRef .tc main_v4) := by
  simp only [StableHlo.after_cons, StableHlo.after_nil]
  rfl
theorem keep2_arg2 (W : Valuation τ sig (Elt Ideal)) :
    StableHlo.after (hostOps0_2 (F := Ideal)) W (Proc.devRef .tc main_arg2) = W (Proc.devRef .tc main_arg2) := by
  simp only [StableHlo.after_cons, StableHlo.after_nil]
  rfl
theorem keep2_arg4 (W : Valuation τ sig (Elt Ideal)) :
    StableHlo.after (hostOps0_2 (F := Ideal)) W (Proc.devRef .tc main_arg4) = W (Proc.devRef .tc main_arg4) := by
  simp only [StableHlo.after_cons, StableHlo.after_nil]
  rfl
theorem keep2_arg6 (W : Valuation τ sig (Elt Ideal)) :
    StableHlo.after (hostOps0_2 (F := Ideal)) W (Proc.devRef .tc main_arg6) = W (Proc.devRef .tc main_arg6) := by
  simp only [StableHlo.after_cons, StableHlo.after_nil]
  rfl
theorem keep1_arg0 (W : Valuation τ sig (Elt Ideal)) :
    StableHlo.after (hostOps0_1 (F := Ideal)) W (Proc.devRef .tc main_arg0) = W (Proc.devRef .tc main_arg0) := by
  simp only [StableHlo.after_cons, StableHlo.after_nil]
  rfl
theorem keep1_arg2 (W : Valuation τ sig (Elt Ideal)) :
    StableHlo.after (hostOps0_1 (F := Ideal)) W (Proc.devRef .tc main_arg2) = W (Proc.devRef .tc main_arg2) := by
  simp only [StableHlo.after_cons, StableHlo.after_nil]
  rfl
theorem keep1_arg3 (W : Valuation τ sig (Elt Ideal)) :
    StableHlo.after (hostOps0_1 (F := Ideal)) W (Proc.devRef .tc main_arg3) = W (Proc.devRef .tc main_arg3) := by
  simp only [StableHlo.after_cons, StableHlo.after_nil]
  rfl
theorem keep1_arg4 (W : Valuation τ sig (Elt Ideal)) :
    StableHlo.after (hostOps0_1 (F := Ideal)) W (Proc.devRef .tc main_arg4) = W (Proc.devRef .tc main_arg4) := by
  simp only [StableHlo.after_cons, StableHlo.after_nil]
  rfl
theorem keep1_arg5 (W : Valuation τ sig (Elt Ideal)) :
    StableHlo.after (hostOps0_1 (F := Ideal)) W (Proc.devRef .tc main_arg5) = W (Proc.devRef .tc main_arg5) := by
  simp only [StableHlo.after_cons, StableHlo.after_nil]
  rfl
theorem keep1_arg6 (W : Valuation τ sig (Elt Ideal)) :
    StableHlo.after (hostOps0_1 (F := Ideal)) W (Proc.devRef .tc main_arg6) = W (Proc.devRef .tc main_arg6) := by
  simp only [StableHlo.after_cons, StableHlo.after_nil]
  rfl
theorem keep0_arg0 (W : Valuation τ sig (Elt Ideal)) :
    StableHlo.after (hostOps0 (F := Ideal)) W (Proc.devRef .tc main_arg0) = W (Proc.devRef .tc main_arg0) := by
  simp only [StableHlo.after_cons, StableHlo.after_nil]
  rfl
theorem keep0_arg2 (W : Valuation τ sig (Elt Ideal)) :
    StableHlo.after (hostOps0 (F := Ideal)) W (Proc.devRef .tc main_arg2) = W (Proc.devRef .tc main_arg2) := by
  simp only [StableHlo.after_cons, StableHlo.after_nil]
  rfl
theorem keep0_arg3 (W : Valuation τ sig (Elt Ideal)) :
    StableHlo.after (hostOps0 (F := Ideal)) W (Proc.devRef .tc main_arg3) = W (Proc.devRef .tc main_arg3) := by
  simp only [StableHlo.after_cons, StableHlo.after_nil]
  rfl
theorem keep0_arg4 (W : Valuation τ sig (Elt Ideal)) :
    StableHlo.after (hostOps0 (F := Ideal)) W (Proc.devRef .tc main_arg4) = W (Proc.devRef .tc main_arg4) := by
  simp only [StableHlo.after_cons, StableHlo.after_nil]
  rfl
theorem keep0_arg5 (W : Valuation τ sig (Elt Ideal)) :
    StableHlo.after (hostOps0 (F := Ideal)) W (Proc.devRef .tc main_arg5) = W (Proc.devRef .tc main_arg5) := by
  simp only [StableHlo.after_cons, StableHlo.after_nil]
  rfl
theorem keep0_arg6 (W : Valuation τ sig (Elt Ideal)) :
    StableHlo.after (hostOps0 (F := Ideal)) W (Proc.devRef .tc main_arg6) = W (Proc.devRef .tc main_arg6) := by
  simp only [StableHlo.after_cons, StableHlo.after_nil]
  rfl

/-- The two weight matrices are converted to the narrower type, which leaves an ideal value as it is. -/
theorem w1_eq (W : Valuation τ sig (Elt Ideal)) :
    StableHlo.after (hostOps0_2 (F := Ideal)) W (Proc.devRef .tc main_v5)
      = truncf (F := Ideal) (s := S128x256) (φ := .f32) .bf16 (W (Proc.devRef .tc main_arg3)) bitsLt_bf16_f32 := by
  simp only [StableHlo.after_cons, StableHlo.after_nil]
  rfl
theorem w2_eq (W : Valuation τ sig (Elt Ideal)) :
    StableHlo.after (hostOps0_2 (F := Ideal)) W (Proc.devRef .tc main_v6)
      = truncf (F := Ideal) (s := S256x512) (φ := .f32) .bf16 (W (Proc.devRef .tc main_arg5)) bitsLt_bf16_f32 := by
  simp only [StableHlo.after_cons, StableHlo.after_nil]
  rfl

end Read

/-! ## From the blocks to the array -/

section Final

variable (V : (c : Dev nD) → (b : Ref sig .tc) → Buf (Elt Ideal) ((c : Thread nD τ).loc b))

set_option maxHeartbeats 400000 in
/-- What point `t` writes back is block `t` of the messages. -/
theorem flushed_eq (c : Dev nD) (t : Fin cfg0.N) :
    (dat0 V c).flushed 6 t
      = ((cfg0.win 6).blk t).view.read (Elt Ideal) (fun i : S320000x512.Idx => msgOf V c (i 0) (i 1)) := by
  show (cfg0.win 6).cut (grid0.coords t) ((dat0 V c).after 6 t) = _
  rw [after0_6]
  obtain ⟨-, -, -, -, -, -, -, -, -, -, e0, e1⟩ := idx_facts t
  funext y
  obtain ⟨p, q, rfl⟩ : ∃ (p : Fin 4000) (q : Fin 512), y = ix2 p q := ⟨y 0, y 1, eq_ix2 (n0 := 4000) (n1 := 512) y⟩
  rw [View.read_apply]
  show out0_6 (F := Ideal) (iblk0 V c 0 t) (iblk0 V c 1 t) (iblk0 V c 2 t) (iblk0 V c 3 t) (iblk0 V c 4 t) (iblk0 V c 5 t) (ix2 p q)
    = msgOf V c ((((cfg0.win 6).blk t).view.emb (ix2 p q)) 0) ((((cfg0.win 6).blk t).view.emb (ix2 p q)) 1)
  rw [out_apply]
  congr 1
  · apply Fin.ext
    show 4000 * t.val + p.val = win0_6.index t (0 : Fin 2) * 4000 + 1 * p.val
    omega
  · apply Fin.ext
    show q.val = win0_6.index t (1 : Fin 2) * 512 + 1 * q.val
    omega

/-- An index of the output array is in point `t`'s block iff each coordinate is in the block's range on its axis. -/
theorem mem_blk (t : Fin cfg0.N) (i : S320000x512.Idx) :
    i ∈ ((cfg0.win 6).blk t).view.set ↔ ∀ a : Fin 2, win0_6.index t a * S4000x512.size a ≤ (i a).val ∧ (i a).val < win0_6.index t a * S4000x512.size a + S4000x512.size a := by
  show i ∈ ((View.whole main_v7).slice (win0_6.rect t)).set ↔ _
  rw [View.set_slice_whole, Rect.mem_set_unit]
  exact Iff.rfl

/-- Every edge's row is in the block of point `e / 4000`. -/
theorem covered (i : S320000x512.Idx) :
    ∃ t : Fin cfg0.N, (cfg0.win 6).flush t = true ∧ i ∈ ((cfg0.win 6).blk t).view.set := by
  have hi0 : (i 0).val < 320000 := (i 0).isLt
  have hi1 : (i 1).val < 512 := (i 1).isLt
  have hN : grid0.N = 80 := N_0
  let t : Fin cfg0.N := ⟨(i 0).val / 4000, by show (i 0).val / 4000 < grid0.N; omega⟩
  obtain ⟨-, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 512 ≤ (i 1).val ∧ (i 1).val < win0_6.index t (1 : Fin 2) * 512 + 512; omega

/-- The output array after all eighty points: every edge's message. -/
theorem final (c : Dev nD) : (dat0 V c).arrAt 6 cfg0.N = fun i : S320000x512.Idx => msgOf V c (i 0) (i 1) :=
  (dat0 V c).arrAt_eq_of_cover 6 (fun i : S320000x512.Idx => msgOf V c (i 0) (i 1)) (fun t _ => flushed_eq V c t) covered

end Final

/-! ## The six input arrays as the program's inputs -/

section Entries

/-- The edge attributes, the two biases: launch arrays no host operation writes. -/
theorem entry_ea (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  rw [keep2_arg2, keep1_arg2, keep0_arg2]
theorem entry_b1 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  rw [keep2_arg4, keep1_arg4, keep0_arg4]
theorem entry_b2 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  rw [keep2_arg6, keep1_arg6, keep0_arg6]

/-- The two weight matrices: launch arrays converted to the narrower type. -/
theorem entry_w1 (c : Dev nD) : V3 m ρ c main_v5
    = truncf (F := Ideal) (s := S128x256) (φ := .f32) .bf16 (m ((c : Thread nD τ).loc main_arg3)) bitsLt_bf16_f32 := by
  show StableHlo.after hostOps0_2 (StableHlo.after hostOps0_1 (StableHlo.after hostOps0 (W0 m ρ c))) (Proc.devRef .tc main_v5) = _
  rw [w1_eq, keep1_arg3, keep0_arg3]
theorem entry_w2 (c : Dev nD) : V3 m ρ c main_v6
    = truncf (F := Ideal) (s := S256x512) (φ := .f32) .bf16 (m ((c : Thread nD τ).loc main_arg5)) bitsLt_bf16_f32 := by
  show StableHlo.after hostOps0_2 (StableHlo.after hostOps0_1 (StableHlo.after hostOps0 (W0 m ρ c))) (Proc.devRef .tc main_v6) = _
  rw [w2_eq, keep1_arg5, keep0_arg5]

/-- The gathered rows: the take of the node features at row 0 of the edge list. -/
theorem entry_x (c : Dev nD) : V3 m ρ c main_v4
    = takeOf (m ((c : Thread nD τ).loc main_arg0))
        (shapeCast S320000 (extractStridedSlice S1x320000 ![0, 0] (m ((c : Thread nD τ).loc main_arg1)) slices_S2x320000_S1x320000_0_0)
          shapeCasts_S1x320000_S320000) := by
  show StableHlo.after hostOps0_2 (StableHlo.after hostOps0_1 (StableHlo.after hostOps0 (W0 m ρ c))) (Proc.devRef .tc main_v4) = _
  rw [keep2_v4, take_eq, keep0_arg0, src_eq]

/-- Row 0 of the edge list, entry `e`. -/
theorem srcList_apply (a1 : IVec S2x320000 32) (e : Fin 320000) :
    shapeCast S320000 (extractStridedSlice S1x320000 ![0, 0] a1 slices_S2x320000_S1x320000_0_0) shapeCasts_S1x320000_S320000 (ix1 e)
      = a1 (ix2 (0 : Fin 2) e) := by
  refine (shapeCast_apply _ _ (ix1 e) (ix2 (0 : Fin 1) e) ?_).trans ?_
  · rw [Shape.rowMajor_val_two, Shape.rowMajor_val_one]
    show 0 * 320000 + e.val = e.val
    omega
  · exact extractStridedSlice_apply _ _ _ (ix2 (0 : Fin 1) e) (ix2 (0 : Fin 2) e) (fun a => match a with
      | ⟨0, _⟩ => rfl
      | ⟨1, _⟩ => by show e.val = 0 + e.val; omega)

/-- With every source a node number, the pipeline's message is the message. -/
theorem msgOf_eq (c : Dev nD) (hsrc : (argsK m c).SrcInRange) (e : Fin 320000) (j : Fin 512) :
    msgOf (V3 m ρ) c e j = msg (argsK m c) e j := by
  have hidx : ∀ e' : Fin 320000, ((shapeCast S320000 (extractStridedSlice S1x320000 ![0, 0] (m ((c : Thread nD τ).loc main_arg1)) slices_S2x320000_S1x320000_0_0)
      shapeCasts_S1x320000_S320000 (ix1 e') : BitVec 32)).toInt = (argsK m c).src e' := fun e' =>
    congrArg BitVec.toInt (srcList_apply (m ((c : Thread nD τ).loc main_arg1)) e')
  have hx : ∀ d : Fin 128, inX (V3 m ρ) c (ix2 e d) = (argsK m c).x0 (row (argsK m c).src e) d := by
    intro d
    refine (congrFun (entry_x m ρ c) (ix2 e d)).trans ?_
    refine takeOf_apply _ _ (fun e' => by rw [hidx e']; exact hsrc e') e d (row (argsK m c).src e) ?_
    show min ((argsK m c).src e).toNat 19999 = _
    rw [hidx e]
  have hea : ∀ d : Fin 128, inEa (V3 m ρ) c (ix2 e d) = (argsK m c).ea e d :=
    fun d => congrFun (entry_ea m ρ c) (ix2 e d)
  have hw1 : ∀ (d : Fin 128) (k : Fin 256), inW1 (V3 m ρ) c (ix2 d k) = (argsK m c).W1 d k :=
    fun d k => congrFun (entry_w1 m ρ c) (ix2 d k)
  have hb1 : ∀ k : Fin 256, inB1 (V3 m ρ) c (ix1 k) = (argsK m c).b1 k :=
    fun k => congrFun (entry_b1 m ρ c) (ix1 k)
  have hw2 : ∀ (k : Fin 256) (j : Fin 512), inW2 (V3 m ρ) c (ix2 k j) = (argsK m c).W2 k j :=
    fun k j => congrFun (entry_w2 m ρ c) (ix2 k j)
  have hb2 : ∀ j : Fin 512, inB2 (V3 m ρ) c (ix1 j) = (argsK m c).b2 j :=
    fun j => congrFun (entry_b2 m ρ c) (ix1 j)
  unfold msgOf msg msg1
  simp only [hx, hea, hw1, hb1, hw2, hb2]

end Entries

/-- With every edge's source a node number, the first pipeline's output array ends holding the messages. -/
theorem result (c : Dev nD) (hsrc : (argsK m c).SrcInRange) :
    (dat0 (V3 m ρ) c).arrAt 6 cfg0.N = fun i => msg (argsK m c) (i 0) (i 1) := by
  funext i
  exact (congrFun (final (V3 m ρ) c) i).trans (msgOf_eq m ρ c hsrc (i 0) (i 1))

end Cert.KernelIdeal.Region0

end
-- ==== Proof.KRegion1.lean ====
/-
  The second pipeline: each block of 2000 nodes is updated from its features and its aggregate; after all 10 blocks the
  pipeline's output array holds the result with the normalisation folded into the fourth map.
-/
import proofs.«411389_j20023137533996_3_alg».proof.Proof.Gen.KernelIdeal.Frame
import proofs.«411389_j20023137533996_3_alg».proof.Proof.KArgs
import proofs.«411389_j20023137533996_3_alg».proof.Proof.KBody
import proofs.«411389_j20023137533996_3_alg».proof.Proof.KRegion0
import proofs.«411389_j20023137533996_3_alg».proof.Proof.LibRows
import Idealize.ShloMosaic.Lib.StableHlo.Run

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A reference none of a literal line of host operations writes keeps its contents over the line. -/
macro "unwritten_by " ops:ident : tactic =>
  `(tactic| (refine StableHlo.after_of_forall_not_mem _ _ (List.forall_iff_forall_mem.mp ?_) <;>
              simp only [$ops:ident, List.flatten_cons, List.flatten_nil, List.append_nil, List.cons_append,
                List.nil_append, List.Forall, StableHlo.nullary_writes, StableHlo.unary_writes, StableHlo.binary_writes,
                StableHlo.ternary_writes, StableHlo.quaternary_writes, StableHlo.reshape_writes, StableHlo.binaryIndexed_writes,
                Finset.mem_singleton] <;>
              (repeat' apply And.intro) <;>
              exact StableHlo.devRef_ne_of_ne (by decide)))

/-! ## The launch arrays, as the second pipeline's host stretch finds them -/

/-- An input array that no host operation before the second stretch writes and that is no array of the first
    pipeline still holds its launch contents after the first pipeline. -/
theorem W4_launch (c : Dev nD) (b : Ref sig .tc) (h0 : ∀ w, Pipeline.arrRef spec0 w ≠ b)
    (h2 : W3 m ρ c (Proc.devRef .tc b) = W2 m ρ c (Proc.devRef .tc b))
    (h1 : W2 m ρ c (Proc.devRef .tc b) = W1 m ρ c (Proc.devRef .tc b))
    (h : W1 m ρ c (Proc.devRef .tc b) = W0 m ρ c (Proc.devRef .tc b)) :
    W4 m ρ c (Proc.devRef .tc b) = m ((c : Thread nD τ).loc b) :=
  (W4_of_ne m ρ c b h0).trans (h2.trans (h1.trans h))

theorem W4_arg0 (c : Dev nD) : W4 m ρ c (Proc.devRef .tc main_arg0) = m ((c : Thread nD τ).loc main_arg0) :=
  W4_launch m ρ c main_arg0 (by decide) (by unwritten_by hostOps0_2) (by unwritten_by hostOps0_1) (by unwritten_by hostOps0)
theorem W4_arg7 (c : Dev nD) : W4 m ρ c (Proc.devRef .tc main_arg7) = m ((c : Thread nD τ).loc main_arg7) :=
  W4_launch m ρ c main_arg7 (by decide) (by unwritten_by hostOps0_2) (by unwritten_by hostOps0_1) (by unwritten_by hostOps0)
theorem W4_arg8 (c : Dev nD) : W4 m ρ c (Proc.devRef .tc main_arg8) = m ((c : Thread nD τ).loc main_arg8) :=
  W4_launch m ρ c main_arg8 (by decide) (by unwritten_by hostOps0_2) (by unwritten_by hostOps0_1) (by unwritten_by hostOps0)
theorem W4_arg9 (c : Dev nD) : W4 m ρ c (Proc.devRef .tc main_arg9) = m ((c : Thread nD τ).loc main_arg9) :=
  W4_launch m ρ c main_arg9 (by decide) (by unwritten_by hostOps0_2) (by unwritten_by hostOps0_1) (by unwritten_by hostOps0)
theorem W4_arg10 (c : Dev nD) : W4 m ρ c (Proc.devRef .tc main_arg10) = m ((c : Thread nD τ).loc main_arg10) :=
  W4_launch m ρ c main_arg10 (by decide) (by unwritten_by hostOps0_2) (by unwritten_by hostOps0_1) (by unwritten_by hostOps0)
theorem W4_arg11 (c : Dev nD) : W4 m ρ c (Proc.devRef .tc main_arg11) = m ((c : Thread nD τ).loc main_arg11) :=
  W4_launch m ρ c main_arg11 (by decide) (by unwritten_by hostOps0_2) (by unwritten_by hostOps0_1) (by unwritten_by hostOps0)
theorem W4_arg12 (c : Dev nD) : W4 m ρ c (Proc.devRef .tc main_arg12) = m ((c : Thread nD τ).loc main_arg12) :=
  W4_launch m ρ c main_arg12 (by decide) (by unwritten_by hostOps0_2) (by unwritten_by hostOps0_1) (by unwritten_by hostOps0)
theorem W4_arg13 (c : Dev nD) : W4 m ρ c (Proc.devRef .tc main_arg13) = m ((c : Thread nD τ).loc main_arg13) :=
  W4_launch m ρ c main_arg13 (by decide) (by unwritten_by hostOps0_2) (by unwritten_by hostOps0_1) (by unwritten_by hostOps0)
theorem W4_arg14 (c : Dev nD) : W4 m ρ c (Proc.devRef .tc main_arg14) = m ((c : Thread nD τ).loc main_arg14) :=
  W4_launch m ρ c main_arg14 (by decide) (by unwritten_by hostOps0_2) (by unwritten_by hostOps0_1) (by unwritten_by hostOps0)

/-! ## What the second pipeline finds in its input arrays, entry by entry -/

set_option maxHeartbeats 1000000 in
/-- The folded bias: the fourth bias less the running mean, times the normalisation's factor, plus the shift. -/
theorem V5_v26 (c : Dev nD) (q : Fin 128) :
    (V5 m ρ c main_v26 : S128.Idx → EReal) (ix1 q)
      = ((argsK m c).b4 q - (argsK m c).mean q) * scale (argsK m c) q + (argsK m c).beta q := by
  show StableHlo.after hostOps1 (W4 m ρ c) (Proc.devRef .tc main_v26) (ix1 q) = _
  after_results_simp
  rw [W4_arg10, W4_arg11, W4_arg12, W4_arg13, W4_arg14]
  rfl

/-- The node features reach the second pipeline as launched. -/
theorem V5_arg0 (c : Dev nD) (n : Fin 20000) (d : Fin 128) :
    (V5 m ρ c main_arg0 : S20000x128.Idx → EReal) (ix2 n d) = (argsK m c).x0 n d := by
  have h : W5 m ρ c (Proc.devRef .tc main_arg0) = W4 m ρ c (Proc.devRef .tc main_arg0) := by unwritten_by hostOps1
  show W5 m ρ c (Proc.devRef .tc main_arg0) (ix2 n d) = _
  rw [h, W4_arg0]
  rfl

/-- The third bias reaches the second pipeline as launched. -/
theorem V5_arg8 (c : Dev nD) (k : Fin 1024) :
    (V5 m ρ c main_arg8 : S1024.Idx → EReal) (ix1 k) = (argsK m c).b3 k := by
  have h : W5 m ρ c (Proc.devRef .tc main_arg8) = W4 m ρ c (Proc.devRef .tc main_arg8) := by unwritten_by hostOps1
  show W5 m ρ c (Proc.devRef .tc main_arg8) (ix1 k) = _
  rw [h, W4_arg8]
  rfl

set_option maxHeartbeats 1000000 in
/-- The first 128 rows of the third matrix. -/
theorem V5_v13 (c : Dev nD) (d : Fin 128) (k : Fin 1024) :
    (V5 m ρ c main_v13 : S128x1024.Idx → EReal) (ix2 d k) = (argsK m c).W3 ⟨d.val, by omega⟩ k := by
  show StableHlo.after hostOps1 (W4 m ρ c) (Proc.devRef .tc main_v13) (ix2 d k) = _
  after_results_simp
  rw [W4_arg7]
  exact extractStridedSlice_apply ![0, 0] (m ((c : Thread nD τ).loc main_arg7) : S640x1024.Idx → EReal)
    slices_S640x1024_S128x1024_0_0 (ix2 d k) (ix2 (⟨d.val, by omega⟩ : Fin 640) k) (fun a => by
      match a with
      | ⟨0, _⟩ => show d.val = 0 + d.val; omega
      | ⟨1, _⟩ => show k.val = 0 + k.val; omega)

set_option maxHeartbeats 1000000 in
/-- The last 512 rows of the third matrix. -/
theorem V5_v15 (c : Dev nD) (d : Fin 512) (k : Fin 1024) :
    (V5 m ρ c main_v15 : S512x1024.Idx → EReal) (ix2 d k) = (argsK m c).W3 ⟨128 + d.val, by omega⟩ k := by
  show StableHlo.after hostOps1 (W4 m ρ c) (Proc.devRef .tc main_v15) (ix2 d k) = _
  after_results_simp
  rw [W4_arg7]
  exact extractStridedSlice_apply ![128, 0] (m ((c : Thread nD τ).loc main_arg7) : S640x1024.Idx → EReal)
    slices_S640x1024_S512x1024_128_0 (ix2 d k) (ix2 (⟨128 + d.val, by omega⟩ : Fin 640) k) (fun a => by
      match a with
      | ⟨0, _⟩ => show 128 + d.val = 128 + d.val; rfl
      | ⟨1, _⟩ => show k.val = 0 + k.val; omega)

set_option maxHeartbeats 1000000 in
/-- The fourth matrix with the normalisation's factor folded into its columns. -/
theorem V5_v23 (c : Dev nD) (k : Fin 1024) (q : Fin 128) :
    (V5 m ρ c main_v23 : S1024x128.Idx → EReal) (ix2 k q) = (argsK m c).W4 k q * scale (argsK m c) q := by
  show StableHlo.after hostOps1 (W4 m ρ c) (Proc.devRef .tc main_v23) (ix2 k q) = _
  after_results_simp
  rw [W4_arg9, W4_arg11, W4_arg14]
  have e1 : ∀ (X : S1x128.Idx → EReal),
      broadcastInDim S1024x128 ![0, 1] bcast_S1x128_S1024x128_0_1 X (ix2 k q) = X (ix2 (0 : Fin 1) q) := fun X =>
    broadcastInDim_apply ![0, 1] bcast_S1x128_S1024x128_0_1 X (ix2 k q) (ix2 (0 : Fin 1) q) (fun a => by
      match a with
      | ⟨0, _⟩ => rfl
      | ⟨1, _⟩ => rfl)
  have e2 : ∀ (X : S128.Idx → EReal),
      broadcastInDim S1x128 ![1] bcast_S128_S1x128_1 X (ix2 (0 : Fin 1) q) = X (ix1 q) := fun X =>
    broadcastInDim_apply ![1] bcast_S128_S1x128_1 X (ix2 (0 : Fin 1) q) (ix1 q) (fun a => by
      match a with
      | ⟨0, _⟩ => rfl)
  rw [truncf_apply, mulf_apply, e1, e2]
  rfl

set_option maxHeartbeats 1000000 in
/-- The destinations' list, as the first host stretch left it: row 1 of the edge list. -/
theorem W4_v3 (c : Dev nD) (e : Fin 320000) :
    (W4 m ρ c (Proc.devRef .tc main_v3) : IVec S320000 32) (ix1 e)
      = (m ((c : Thread nD τ).loc main_arg1) : IVec S2x320000 32) (ix2 (1 : Fin 2) e) := by
  have h4 : W4 m ρ c (Proc.devRef .tc main_v3) = W3 m ρ c (Proc.devRef .tc main_v3) := W4_of_ne m ρ c main_v3 (by decide)
  have h3 : W3 m ρ c (Proc.devRef .tc main_v3) = W2 m ρ c (Proc.devRef .tc main_v3) := by unwritten_by hostOps0_2
  have h2 : W2 m ρ c (Proc.devRef .tc main_v3) = W1 m ρ c (Proc.devRef .tc main_v3) := by unwritten_by hostOps0_1
  rw [h4, h3, h2]
  show StableHlo.after hostOps0 (W0 m ρ c) (Proc.devRef .tc main_v3) (ix1 e) = _
  after_results_simp
  refine (shapeCast_apply _ shapeCasts_S1x320000_S320000 (ix1 e) (ix2 (0 : Fin 1) e) ?_).trans ?_
  · rw [Shape.rowMajor_val_two, Shape.rowMajor_val_one]
    show 0 * 320000 + e.val = e.val
    omega
  · exact extractStridedSlice_apply ![1, 0] (m ((c : Thread nD τ).loc main_arg1) : IVec S2x320000 32)
      slices_S2x320000_S1x320000_1_0 (ix2 (0 : Fin 1) e) (ix2 (1 : Fin 2) e) (fun a => by
        match a with
        | ⟨0, _⟩ => show 1 = 1 + 0; rfl
        | ⟨1, _⟩ => show e.val = 0 + e.val; omega)

/-- A list of row numbers held as a one-column array reads, at row `e`, the list's entry `e`. -/
theorem column_apply (X : IVec S320000 32) (e : Fin 320000) :
    broadcastInDim S320000x1 ![0] bcast_S320000_S320000x1_0 X (ix2 e (0 : Fin 1)) = X (ix1 e) :=
  broadcastInDim_apply ![0] bcast_S320000_S320000x1_0 X (ix2 e (0 : Fin 1)) (ix1 e) (fun a => by
    match a with
    | ⟨0, h0⟩ =>
      rw [if_neg (show ¬ S320000.size ⟨0, h0⟩ = 1 from by show ¬ (320000 : ℕ) = 1; omega)]
      rfl)

set_option maxHeartbeats 1000000 in
/-- The aggregate: each node's sum of the messages of the edges that end at it. -/
theorem V5_v11 (c : Dev nD) (hsrc : (argsK m c).SrcInRange) (n : Fin 20000) (j : Fin 512) :
    (V5 m ρ c main_v11 : S20000x512.Idx → EReal) (ix2 n j) = aggr (argsK m c) n j := by
  have hmsg : W4 m ρ c (Proc.devRef .tc main_v7) = fun i => msg (argsK m c) (i 0) (i 1) :=
    (W4_arr m ρ c 6).trans (Region0.result m ρ c hsrc)
  show StableHlo.after hostOps1 (W4 m ρ c) (Proc.devRef .tc main_v11) (ix2 n j) = _
  after_results_simp
  rw [show scatter_S20000x512_S320000x1_S320000x512_1_0_0_1
      = rowScatterDims 20000 320000 512 scatter_S20000x512_S320000x1_S320000x512_1_0_0_1_wf from rfl,
    rowScatterAdd_apply, hmsg]
  rw [show broadcastInDim S20000x512 ![] bcast_S_S20000x512 (constant (F := Ideal) S_ .f32 0#32) (ix2 n j) = 0
      from Ideal.ofBits_zero_f32, zero_add]
  unfold aggr
  show (Finset.sum _ _ : EReal) = Finset.sum _ _
  refine Finset.sum_congr (Finset.filter_congr fun e _ => ?_) fun e _ => rfl
  exact (congrArg (fun z : BitVec 32 => z.toInt = (n.val : ℤ)) ((column_apply _ e).trans (W4_v3 m ρ c e))).to_iff

/-! ## From the blocks to the array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the grid: the node windows (features, aggregate, result) move to block `t` at
    point `t`; the weights' and biases' windows stay at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A point's number is below 10. -/
theorem point_lt (t : Fin cfg1.N) : t.val < 10 := t.isLt.trans_eq N_1

/-- Row `p` of point `t`'s block is node `2000 t + p`. -/
def node (t : Fin cfg1.N) (p : Fin 2000) : Fin 20000 := ⟨2000 * t.val + p.val, by have := point_lt t; omega⟩

/-- The features' block at point `t`. -/
theorem blk0_apply (c : Dev nD) (t : Fin cfg1.N) (p : Fin 2000) (d : Fin 128) :
    (iblk1 (V5 m ρ) c 0 t : Vec Ideal S2000x128 .f32) (ix2 p d) = (argsK m c).x0 (node t p) d := by
  obtain ⟨e0, e1, -⟩ := index_facts t
  rw [← V5_arg0 m ρ c (node t p) d]
  show V5 m ρ c main_arg0 (((cfg1.win 0).blk t).view.emb (ix2 p d)) = V5 m ρ c main_arg0 (ix2 (node t p) d)
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * d.val = d.val; rw [e1]; omega

/-- The aggregate's block at point `t`. -/
theorem blk1_apply (c : Dev nD) (hsrc : (argsK m c).SrcInRange) (t : Fin cfg1.N) (p : Fin 2000) (j : Fin 512) :
    (iblk1 (V5 m ρ) c 1 t : Vec Ideal S2000x512 .f32) (ix2 p j) = aggr (argsK m c) (node t p) j := by
  obtain ⟨-, -, e0, e1, -⟩ := index_facts t
  rw [← V5_v11 m ρ c hsrc (node t p) j]
  show V5 m ρ c main_v11 (((cfg1.win 1).blk t).view.emb (ix2 p j)) = V5 m ρ c main_v11 (ix2 (node t p) j)
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 512 + 1 * j.val = j.val; rw [e1]; omega

/-- The third matrix's first rows: the whole array at every point. -/
theorem blk2_apply (c : Dev nD) (t : Fin cfg1.N) (d : Fin 128) (k : Fin 1024) :
    (iblk1 (V5 m ρ) c 2 t : Vec Ideal S128x1024 .bf16) (ix2 d k) = (argsK m c).W3 ⟨d.val, by omega⟩ k := by
  obtain ⟨-, -, -, -, e0, e1, -⟩ := index_facts t
  rw [← V5_v13 m ρ c d k]
  show V5 m ρ c main_v13 (((cfg1.win 2).blk t).view.emb (ix2 d k)) = V5 m ρ c main_v13 (ix2 d k)
  congr 1
  funext a
  apply Fin.ext
  match a with
  | ⟨0, _⟩ => show win1_2.index t (0 : Fin 2) * 128 + 1 * d.val = d.val; rw [e0]; omega
  | ⟨1, _⟩ => show win1_2.index t (1 : Fin 2) * 1024 + 1 * k.val = k.val; rw [e1]; omega

/-- The third matrix's last rows: the whole array at every point. -/
theorem blk3_apply (c : Dev nD) (t : Fin cfg1.N) (d : Fin 512) (k : Fin 1024) :
    (iblk1 (V5 m ρ) c 3 t : Vec Ideal S512x1024 .bf16) (ix2 d k) = (argsK m c).W3 ⟨128 + d.val, by omega⟩ k := by
  obtain ⟨-, -, -, -, -, -, e0, e1, -⟩ := index_facts t
  rw [← V5_v15 m ρ c d k]
  show V5 m ρ c main_v15 (((cfg1.win 3).blk t).view.emb (ix2 d k)) = V5 m ρ c main_v15 (ix2 d k)
  congr 1
  funext a
  apply Fin.ext
  match a with
  | ⟨0, _⟩ => show win1_3.index t (0 : Fin 2) * 512 + 1 * d.val = d.val; rw [e0]; omega
  | ⟨1, _⟩ => show win1_3.index t (1 : Fin 2) * 1024 + 1 * k.val = k.val; rw [e1]; omega

/-- The third bias: the whole array at every point. -/
theorem blk4_apply (c : Dev nD) (t : Fin cfg1.N) (k : Fin 1024) :
    (iblk1 (V5 m ρ) c 4 t : Vec Ideal S1024 .f32) (ix1 k) = (argsK m c).b3 k := by
  obtain ⟨-, -, -, -, -, -, -, -, e0, -⟩ := index_facts t
  rw [← V5_arg8 m ρ c k]
  show V5 m ρ c main_arg8 (((cfg1.win 4).blk t).view.emb (ix1 k)) = V5 m ρ c main_arg8 (ix1 k)
  congr 1
  funext a
  apply Fin.ext
  match a with
  | ⟨0, _⟩ => show win1_4.index t (0 : Fin 1) * 1024 + 1 * k.val = k.val; rw [e0]; omega

/-- The scaled fourth matrix: the whole array at every point. -/
theorem blk5_apply (c : Dev nD) (t : Fin cfg1.N) (k : Fin 1024) (q : Fin 128) :
    (iblk1 (V5 m ρ) c 5 t : Vec Ideal S1024x128 .bf16) (ix2 k q) = (argsK m c).W4 k q * scale (argsK m c) q := by
  obtain ⟨-, -, -, -, -, -, -, -, -, e0, e1, -⟩ := index_facts t
  rw [← V5_v23 m ρ c k q]
  show V5 m ρ c main_v23 (((cfg1.win 5).blk t).view.emb (ix2 k q)) = V5 m ρ c main_v23 (ix2 k q)
  congr 1
  funext a
  apply Fin.ext
  match a with
  | ⟨0, _⟩ => show win1_5.index t (0 : Fin 2) * 1024 + 1 * k.val = k.val; rw [e0]; omega
  | ⟨1, _⟩ => show win1_5.index t (1 : Fin 2) * 128 + 1 * q.val = q.val; rw [e1]; omega

/-- The folded bias: the whole array at every point. -/
theorem blk6_apply (c : Dev nD) (t : Fin cfg1.N) (q : Fin 128) :
    (iblk1 (V5 m ρ) c 6 t : Vec Ideal S128 .f32) (ix1 q)
      = ((argsK m c).b4 q - (argsK m c).mean q) * scale (argsK m c) q + (argsK m c).beta q := by
  obtain ⟨-, -, -, -, -, -, -, -, -, -, -, e0, -⟩ := index_facts t
  rw [← V5_v26 m ρ c q]
  show V5 m ρ c main_v26 (((cfg1.win 6).blk t).view.emb (ix1 q)) = V5 m ρ c main_v26 (ix1 q)
  congr 1
  funext a
  apply Fin.ext
  match a with
  | ⟨0, _⟩ => show win1_6.index t (0 : Fin 1) * 128 + 1 * q.val = q.val; rw [e0]; omega

/-- What a block of nodes computes, once its input blocks are known entry by entry: `outK` of the block's nodes. -/
theorem block_value (A : Args) (x0 : Vec Ideal S2000x128 .f32) (ag : Vec Ideal S2000x512 .f32)
    (w3a : Vec Ideal S128x1024 .bf16) (w3b : Vec Ideal S512x1024 .bf16) (b3 : Vec Ideal S1024 .f32)
    (w4 : Vec Ideal S1024x128 .bf16) (b4 : Vec Ideal S128 .f32) (nd : Fin 2000 → Fin 20000)
    (h0 : ∀ p d, x0 (ix2 p d) = A.x0 (nd p) d) (h1 : ∀ p j, ag (ix2 p j) = aggr A (nd p) j)
    (h2 : ∀ (d : Fin 128) k, w3a (ix2 d k) = A.W3 ⟨d.val, by omega⟩ k)
    (h3 : ∀ (d : Fin 512) k, w3b (ix2 d k) = A.W3 ⟨128 + d.val, by omega⟩ k)
    (h4 : ∀ k, b3 (ix1 k) = A.b3 k) (h5 : ∀ k q, w4 (ix2 k q) = A.W4 k q * scale A q)
    (h6 : ∀ q, b4 (ix1 q) = (A.b4 q - A.mean q) * scale A q + A.beta q) (p : Fin 2000) (q : Fin 128) :
    k1_pay1 (F := Ideal) x0 ag w3a w3b b3 w4 b4 (ix2 p q) = outK A (nd p) q := by
  rw [Body.pay1_apply]
  unfold outK hidK
  simp only [h0, h1, h2, h3, h4, h5, h6]

/-- The same at any index of the block. -/
theorem block_value_at (A : Args) (x0 : Vec Ideal S2000x128 .f32) (ag : Vec Ideal S2000x512 .f32)
    (w3a : Vec Ideal S128x1024 .bf16) (w3b : Vec Ideal S512x1024 .bf16) (b3 : Vec Ideal S1024 .f32)
    (w4 : Vec Ideal S1024x128 .bf16) (b4 : Vec Ideal S128 .f32) (nd : Fin 2000 → Fin 20000)
    (h0 : ∀ p d, x0 (ix2 p d) = A.x0 (nd p) d) (h1 : ∀ p j, ag (ix2 p j) = aggr A (nd p) j)
    (h2 : ∀ (d : Fin 128) k, w3a (ix2 d k) = A.W3 ⟨d.val, by omega⟩ k)
    (h3 : ∀ (d : Fin 512) k, w3b (ix2 d k) = A.W3 ⟨128 + d.val, by omega⟩ k)
    (h4 : ∀ k, b3 (ix1 k) = A.b3 k) (h5 : ∀ k q, w4 (ix2 k q) = A.W4 k q * scale A q)
    (h6 : ∀ q, b4 (ix1 q) = (A.b4 q - A.mean q) * scale A q + A.beta q) (y : S2000x128.Idx) :
    k1_pay1 (F := Ideal) x0 ag w3a w3b b3 w4 b4 y = outK A (nd (y 0)) (y 1) := by
  conv_lhs => rw [eq_ix2 y]
  exact block_value A x0 ag w3a w3b b3 w4 b4 nd h0 h1 h2 h3 h4 h5 h6 (y 0) (y 1)

set_option maxHeartbeats 400000 in
/-- WHAT POINT `t` WRITES BACK is block `t` of `outK` of the inputs. -/
theorem flushed_eq (c : Dev nD) (hsrc : (argsK m c).SrcInRange) (t : Fin cfg1.N) :
    (dat1 (V5 m ρ) c).flushed 7 t
      = ((cfg1.win 7).blk t).view.read (Elt Ideal) (fun i => outK (argsK m c) (i 0) (i 1)) := by
  show (cfg1.win 7).cut (grid1.coords t) ((dat1 (V5 m ρ) c).after 7 t) = _
  rw [after1_7]
  unfold out1_7
  rw [View.canon_unit_zero zero_offsets2]
  simp only [View.ld_unit_zero (S := S2000x128) zero_offsets2, View.ld_unit_zero (S := S2000x512) zero_offsets2,
    View.ld_unit_zero (S := S128x1024) zero_offsets2, View.ld_unit_zero (S := S512x1024) zero_offsets2,
    View.ld_unit_zero (S := S1024) zero_offsets1, View.ld_unit_zero (S := S1024x128) zero_offsets2,
    View.ld_unit_zero (S := S128) zero_offsets1]
  obtain ⟨-, -, -, -, -, -, -, -, -, -, -, -, e0, e1⟩ := index_facts t
  funext y
  refine (block_value_at (argsK m c) _ _ _ _ _ _ _ (node t) (blk0_apply m ρ c t) (blk1_apply m ρ c hsrc t)
    (blk2_apply m ρ c t) (blk3_apply m ρ c t) (blk4_apply m ρ c t) (blk5_apply m ρ c t) (blk6_apply m ρ c t)
    ((cfg1.win 7).xinj (grid1.coords t) y)).trans ?_
  show outK (argsK m c) (node t (((cfg1.win 7).xinj (grid1.coords t) y) 0)) (((cfg1.win 7).xinj (grid1.coords t) y) 1)
    = outK (argsK m c) ((((cfg1.win 7).blk t).view.emb y) 0) ((((cfg1.win 7).blk t).view.emb y) 1)
  congr 1
  · apply Fin.ext
    show 2000 * t.val + (y 0).val = win1_7.index t (0 : Fin 2) * 2000 + 1 * (y 0).val
    rw [e0]; omega
  · apply Fin.ext
    show (y 1).val = win1_7.index t (1 : Fin 2) * 128 + 1 * (y 1).val
    rw [e1]; omega

/-- An index of the result array is in point `t`'s block iff each coordinate is in the block's range on its axis. -/
theorem mem_blk (t : Fin cfg1.N) (i : S20000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v27).slice (win1_7.rect t)).set ↔ _
  rw [View.set_slice_whole, Rect.mem_set_unit]
  exact Iff.rfl

/-- Every node's row is in some point's block: node `n` in block `n / 2000`. -/
theorem covered (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  have ht : (i 0).val / 2000 < cfg1.N := by rw [show cfg1.N = 10 from N_1]; omega
  obtain ⟨-, -, -, -, -, -, -, -, -, -, -, -, e0, e1⟩ := index_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e1]
    omega

/-- With every edge's source a node number, the second pipeline's output array ends holding `outK` of the inputs. -/
theorem result (c : Dev nD) (hsrc : (argsK m c).SrcInRange) :
    (dat1 (V5 m ρ) c).arrAt 7 cfg1.N = fun i => outK (argsK m c) (i 0) (i 1) :=
  (dat1 (V5 m ρ) c).arrAt_eq_of_cover 7 (fun i => outK (argsK m c) (i 0) (i 1))
    (fun t _ => flushed_eq m ρ c hsrc t) covered

end Cert.KernelIdeal.Region1

end
-- ==== Proof.lean ====
/-
  The claim: a message-passing layer over 20000 nodes and 320000 edges, computed by two tiled pipelines with the
  gather and the scatter-add between them, agrees with its plain formulation on the stated domain — every
  floating-point input a real number, every edge's source a node number, every running variance non-negative.

  Both programs compute the same messages (gather a row, multiply by the edge's attributes, two affine maps with a
  leaky rectifier) and the same aggregate (messages summed into their destination nodes).  They differ in the node
  update: the first splits the third weight matrix into the rows that meet the node's own features and the rows that
  meet its aggregate, and folds the normalisation by running statistics into the fourth map; the second multiplies the
  concatenated row by the whole matrix and normalises afterwards.  On real inputs with non-negative variances the
  two are one function (Algebra).  The source range is what makes the first program's bounds-checked gather, which
  fills out-of-range rows with a junk value, the plain gather of the second.

  The first program's two pipelines end with their output arrays at `msg` and `outK` of the inputs (KRegion0,
  KRegion1, over the bodies read entry by entry in KBody), the run keeps the result array in its post (KRun); the
  second program's run ends at `outR` of the inputs (RefValue); the stated domain is decoded in PreFacts.
-/
import proofs.«411389_j20023137533996_3_alg».proof.Defs
import proofs.«411389_j20023137533996_3_alg».proof.Proof.Gen.Kernel
import proofs.«411389_j20023137533996_3_alg».proof.Proof.Gen.Kernel.Skeleton
import proofs.«411389_j20023137533996_3_alg».proof.Proof.Gen.Kernel.Launch
import proofs.«411389_j20023137533996_3_alg».proof.Proof.Gen.Kernel.Points
import proofs.«411389_j20023137533996_3_alg».proof.Proof.Gen.Kernel.Frame
import proofs.«411389_j20023137533996_3_alg».proof.Proof.Gen.KernelIdeal
import proofs.«411389_j20023137533996_3_alg».proof.Proof.Gen.KernelIdeal.Skeleton
import proofs.«411389_j20023137533996_3_alg».proof.Proof.Gen.KernelIdeal.Launch
import proofs.«411389_j20023137533996_3_alg».proof.Proof.Gen.KernelIdeal.Points
import proofs.«411389_j20023137533996_3_alg».proof.Proof.Gen.KernelIdeal.Frame
import proofs.«411389_j20023137533996_3_alg».proof.Proof.Gen.ReferenceIdeal
import proofs.«411389_j20023137533996_3_alg».proof.Proof.Gen.ReferenceIdeal.Run
import proofs.«411389_j20023137533996_3_alg».proof.Proof.Gen.ReferenceIdeal.Read
import proofs.«411389_j20023137533996_3_alg».proof.Proof.Gen.Pre_finite_inputs
import proofs.«411389_j20023137533996_3_alg».proof.Proof.Spec
import proofs.«411389_j20023137533996_3_alg».proof.Proof.KArgs
import proofs.«411389_j20023137533996_3_alg».proof.Proof.Algebra
import proofs.«411389_j20023137533996_3_alg».proof.Proof.PreFacts
import proofs.«411389_j20023137533996_3_alg».proof.Proof.RefValue
import proofs.«411389_j20023137533996_3_alg».proof.Proof.KRun
import proofs.«411389_j20023137533996_3_alg».proof.Proof.KRegion1
import Idealize.ShloMosaic.Adequacy
import Idealize.ShloMosaic.Init

noncomputable section

namespace Cert.Proof

open Idealize.ShloMosaic Idealize.ShloMosaic.TcCoe Idealize.SL.Sem

/-- Every weakly fair execution of the first program, as printed, terminates without a fault and leaves its arguments. -/
theorem frame_p : Cert.frame_Kernel := fun m ρ _ => Cert.Kernel.Gen.frame m ρ

/-- The same of its idealization. -/
theorem frame_pi : Cert.frame_KernelIdeal := fun m ρ _ => Cert.KernelIdeal.Gen.frame m ρ

/-- The same of the second program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The stated domain at a launch memory of the first program, on plain coordinates. -/
theorem facts_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.argsK m c).AllReal ∧ (Cert.KernelIdeal.argsK m c).SrcInRange ∧ (Cert.KernelIdeal.argsK m c).VarNonneg :=
  Cert.PreFacts.of_pre _ _ _ _ _ _ _ _ _ _ _ _ _ _ _ (hpre c)

/-- From memories that agree on the arguments both programs end with the same result, entry by entry: the first at
    `outK` of the inputs, the second at `outR` of the same inputs, one function on the stated domain. -/
theorem algebraic : Cert.algebraic_KernelIdeal_ReferenceIdeal := by
  intro m ρ m' ρ' hpre hagree
  refine ⟨fun c => fun i => Cert.Spec.outK (Cert.KernelIdeal.argsK m c) (i 0) (i 1), ?_, ?_⟩
  · exact (θ_run Cert.KernelIdeal.defs _ _).mono
      (fun r h c => ⟨(h c).1.trans ((Cert.KernelIdeal.GenV.W6_result m ρ c).trans
          (Cert.KernelIdeal.Region1.result m ρ c (facts_of_pre m hpre c).2.1)), (h c).2⟩)
      (Cert.KernelIdeal.GenV.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨hreal, hsrc, hvar⟩ := facts_of_pre m hpre c
    obtain ⟨e0, e1, e2, e3, e4, e5, e6, e7, e8, e9, e10, e11, e12, e13, e14⟩ := hagree c
    rw [Cert.ReferenceIdeal.Read.val_main_v64_eq, e0, e1, e2, e3, e4, e5, e6, e7, e8, e9, e10, e11, e12, e13, e14]
    rw [Cert.RefSide.val_eq _ _ _ _ _ _ _ _ _ _ _ _ _ _ _ hsrc]
    funext i
    exact (Cert.Spec.outK_eq_outR (Cert.KernelIdeal.argsK m c) hreal hvar (i 0) (i 1)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
